-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S100000x16 : Shape := ⟨2, ![100000, 16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x16 .f32) (main_arg1 : FVec F S100000x16 .f32) (main_arg2 : FVec F S100000x16 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S100000x16 .f32 := Host.absf main_arg2
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  main_v13
-- ==== Kernel.lean ====
abbrev S1024x16 : Shape := ⟨2, ![1024, 16]⟩
abbrev S100000x16 : Shape := ⟨2, ![100000, 16]⟩
abbrev S1024x17 : Shape := ⟨2, ![1024, 17]⟩
abbrev S10000x16 : Shape := ⟨2, ![10000, 16]⟩
abbrev S1x1 : Shape := ⟨2, ![1, 1]⟩
abbrev S10000 : Shape := ⟨1, ![10000]⟩
abbrev S10000x1 : Shape := ⟨2, ![10000, 1]⟩
abbrev S1 : Shape := ⟨1, ![1]⟩
abbrev S1024 : Shape := ⟨1, ![1024]⟩
abbrev S1024x1 : Shape := ⟨2, ![1024, 1]⟩
abbrev S2000x16 : Shape := ⟨2, ![2000, 16]⟩
abbrev S2000x1 : Shape := ⟨2, ![2000, 1]⟩
abbrev S2000x17 : Shape := ⟨2, ![2000, 17]⟩
abbrev S1024x2000 : Shape := ⟨2, ![1024, 2000]⟩

abbrev nBuf : Space → Nat
  | .hbm => 5
  | .vmem => 12
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000x16, .f32⟩
  | .hbm, ⟨3, _⟩ => ⟨S1024x17, .bf16⟩
  | .hbm, ⟨4, _⟩ => ⟨S1024x16, .f32⟩
  | .local _ .vmem, ⟨0, _⟩ => ⟨S1024x16, .f32⟩
  | .local _ .vmem, ⟨1, _⟩ => ⟨S10000x16, .f32⟩
  | .local _ .vmem, ⟨2, _⟩ => ⟨S10000x16, .f32⟩
  | .local _ .vmem, ⟨3, _⟩ => ⟨S1024x17, .bf16⟩
  | .local _ .vmem, ⟨4, _⟩ => ⟨S1x1, .f32⟩
  | .local _ .vmem, ⟨5, _⟩ => ⟨S1024x17, .bf16⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x16, .f32⟩
  | .local _ .vmem, ⟨10, _⟩ => ⟨S1024x16, .f32⟩
  | .local _ .vmem, ⟨11, _⟩ => ⟨S1024x17, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9

abbrev nD : Nat := 1
abbrev τ : Topo := Topo.v7x

variable {F : FTy → Type} [FloatOps F]

abbrev grid0 : Pipeline.Grid := ⟨1, ![10], ![false]⟩

def k0_cond3 (i : grid0.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x17 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v21 : BitVec 1 := Scalar.cmpi .eq arg0 c49_i32
  let v22 : BitVec 32 := Scalar.extui v21
  let c0_i32_12 : BitVec 32 := 0#32
  let v23 : BitVec 1 := Scalar.cmpi .ne v22 c0_i32_12
  v23

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x17 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S10000x16_S10000x16_0_0 : ∀ a, (![0, 0] : Fin 2 → Nat) a + S10000x16.size a ≤ S10000x16.size a
  h_S10000x16 : 0 < S10000x16.numel
  reduces_S10000x16_S10000 : S10000x16.Reduces [1] S10000
  shapeCasts_S10000_S10000x1 : S10000.ShapeCasts S10000x1
  reduces_S10000x1_S1 : S10000x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x16_S1024x16_0_0 : ∀ a, (![0, 0] : Fin 2 → Nat) a + S1024x16.size a ≤ S1024x16.size a
  h_S1024x16 : 0 < S1024x16.numel
  reduces_S1024x16_S1024 : S1024x16.Reduces [1] S1024
  shapeCasts_S1024_S1024x1 : S1024.ShapeCasts S1024x1
  broadcasts_S1x1_S1024x1 : S1x1.Broadcasts S1024x1
  bitsLt_bf16_f32 : FTy.bits .bf16 < FTy.bits .f32
  inb_S1024x17_S1024x16_0_0 : ∀ a, (![0, 0] : Fin 2 → Nat) a + S1024x16.size a ≤ S1024x17.size a
  packedbf16_S1024x17_S1024x16_0_0 : (Rect.unit (s := S1024x17) ![0, 0] S1024x16.size inb_S1024x17_S1024x16_0_0).PackedRows (EltTy.packing .bf16)
  inb_S1024x17_S1024x1_0_16 : ∀ a, (![0, 16] : Fin 2 → Nat) a + S1024x1.size a ≤ S1024x17.size a
  h_S1024x1 : 0 < S1024x1.numel
  packedbf16_S1024x17_S1024x1_0_16 : (Rect.unit (s := S1024x17) ![0, 16] S1024x1.size inb_S1024x17_S1024x1_0_16).PackedRows (EltTy.packing .bf16)
  inb_S1024x17_S1024x17_0_0 : ∀ a, (![0, 0] : Fin 2 → Nat) a + S1024x17.size a ≤ S1024x17.size a
  h_S1024x17 : 0 < S1024x17.numel
  shapeCasts_S1024x17_S1024x17 : S1024x17.ShapeCasts S1024x17
  inb_S2000x16_S2000x16_0_0 : ∀ a, (![0, 0] : Fin 2 → Nat) a + S2000x16.size a ≤ S2000x16.size a
  h_S2000x16 : 0 < S2000x16.numel
  concatenates_S2000x16_S2000x1_S2000x17_d1 : Shape.Concatenates [S2000x16, S2000x1] S2000x17 1
  broadcasts_S1024x1_S1024x16 : S1024x1.Broadcasts S1024x16
  dot_S1024x17_S2000x17_S1024x2000_1_1_0_0_n_n_wf : DotDims.WF S1024x17 S2000x17 S1024x2000 [1] [1] [0] [0] [] []
  dot_S1024x2000_S2000x17_S1024x17_1_0_0_1_n_n_wf : DotDims.WF S1024x2000 S2000x17 S1024x17 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S1024x16.size a
  hwx0_0 : ∀ i : grid0.Coords, EltTy.bits .f32 = 32 ∨ (Rect.block (s := S1024x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S100000x16.size a
  hwx0_1 : ∀ i : grid0.Coords, EltTy.bits .f32 = 32 ∨ (Rect.block (s := S100000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x17.size a ≤ S1024x17.size a
  hwx0_2 : ∀ i : grid0.Coords, EltTy.bits .bf16 = 32 ∨ (Rect.block (s := S1024x17) S1024x17.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x17.size a ≤ S1024x17.size a
  hwx1_0 : ∀ i : grid1.Coords, EltTy.bits .bf16 = 32 ∨ (Rect.block (s := S1024x17) S1024x17.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x16.size a ≤ S1024x16.size a
  hwx1_3 : ∀ i : grid1.Coords, EltTy.bits .f32 = 32 ∨ (Rect.block (s := S1024x16) S1024x16.size (cc1_transform_3 i) (hinb1_3 i)).WholeWords (EltTy.packing .f32)

variable [Facts₀]

def dot_S1024x17_S2000x17_S1024x2000_1_1_0_0_n_n : DotDims S1024x17 S2000x17 S1024x2000 where
  lhsContracting := [1]
  rhsContracting := [1]
  lhsNonContracting := [0]
  rhsNonContracting := [0]
  lhsBatch := []
  rhsBatch := []
  wf := dot_S1024x17_S2000x17_S1024x2000_1_1_0_0_n_n_wf
def dot_S1024x2000_S2000x17_S1024x17_1_0_0_1_n_n : DotDims S1024x2000 S2000x17 S1024x17 where
  lhsContracting := [1]
  rhsContracting := [0]
  lhsNonContracting := [0]
  rhsNonContracting := [1]
  lhsBatch := []
  rhsBatch := []
  wf := dot_S1024x2000_S2000x17_S1024x17_1_0_0_1_n_n_wf

abbrev win0_0 : Pipeline.Window sig grid0 :=
  Pipeline.Window.ofSpec (Memref.whole main_arg0) S1024x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1024x17.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

abbrev win1_0 : Pipeline.Window sig grid1 :=
  Pipeline.Window.ofSpec (Memref.whole main_call0_v0) S1024x17.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x16.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1024x16 : Shape := ⟨2, ![1024, 16]⟩
abbrev S100000x16 : Shape := ⟨2, ![100000, 16]⟩
abbrev S16x100000 : Shape := ⟨2, ![16, 100000]⟩
abbrev S1024x100000 : Shape := ⟨2, ![1024, 100000]⟩
abbrev S_ : Shape := ⟨0, ![]⟩
abbrev S1024 : Shape := ⟨1, ![1024]⟩
abbrev S1024x1 : Shape := ⟨2, ![1024, 1]⟩

abbrev nBuf : Space → Nat
  | .hbm => 20
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000x16, .f32⟩
  | .hbm, ⟨3, _⟩ => ⟨S16x100000, .f32⟩
  | .hbm, ⟨4, _⟩ => ⟨S1024x100000, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x100000, .f32⟩
  | .hbm, ⟨18, _⟩ => ⟨S1024x100000, .f32⟩
  | .hbm, ⟨19, _⟩ => ⟨S1024x16, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S100000x16_S16x100000_1_0 : S100000x16.Transposes [1, 0] S16x100000
  reducesTo_S1024x100000_S1024_d1 : S1024x100000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  dot_S1024x16_S16x100000_S1024x100000_1_0_0_1_n_n_wf : DotDims.WF S1024x16 S16x100000 S1024x100000 [1] [0] [0] [1] [] []
  dot_S1024x100000_S100000x16_S1024x16_1_0_0_1_n_n_wf : DotDims.WF S1024x100000 S100000x16 S1024x16 [1] [0] [0] [1] [] []

variable [Facts₀]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf
def dot_S1024x100000_S100000x16_S1024x16_1_0_0_1_n_n : DotDims S1024x100000 S100000x16 S1024x16 where
  lhsContracting := [1]
  rhsContracting := [0]
  lhsNonContracting := [0]
  rhsNonContracting := [1]
  lhsBatch := []
  rhsBatch := []
  wf := dot_S1024x100000_S100000x16_S1024x16_1_0_0_1_n_n_wf

class Facts : Prop extends Facts₀ where

variable [Facts]
-- ==== Proof.K.R0Defs.lean ====
/-
  The first region (the prologue call, ten grid points over blocks of 10000 key rows), as data.
  A one-cell scratch carries the running maximum of the squared key-row norms: the first point stores the block's
  maximum, every later point the maximum of what it finds and its own block's. The last point also writes the
  output block [q | -sqrt(|q_b|^2 * max)] (two column pieces of the 1024 x 17 buffer); at the other points the
  output window is idle. Everything is stated at the contents `V` the region is entered from.
-/
import proofs.«167948_g19181323944180_cont_8to1_1754_15_alg».proof.Proof.Gen.Kernel.Launch
import proofs.«167948_g19181323944180_cont_8to1_1754_15_alg».proof.Proof.Gen.Kernel.Skeleton
import proofs.«167948_g19181323944180_cont_8to1_1754_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query block (the whole query array at every point). -/
abbrev qblk0 (c : Dev nD) (t : Fin cfg0.N) : Vec F S1024x16 .f32 := iblk0 V c 0 t
/-- The block of 10000 key rows at point `t`. -/
abbrev kblk0 (c : Dev nD) (t : Fin cfg0.N) : Vec F S10000x16 .f32 := iblk0 V c 1 t

/-- The scratch cell after point `n`: the maximum over the key blocks 0..n of each block's largest squared row norm. -/
def km0 (c : Dev nD) : (n : ℕ) → n < cfg0.N → Vec F S1x1 .f32
  | 0, h => k0_pay2 (kblk0 V c ⟨0, h⟩)
  | n + 1, h => k0_pay3 (kblk0 V c ⟨n + 1, h⟩) (km0 c n (Nat.lt_of_succ_lt h))

/-- The two column rectangles of the output buffer: columns 0..15 and column 16. -/
abbrev rq0 : Rect S1024x17 := Rect.unit (s := S1024x17) ![0, 0] S1024x16.size inb_S1024x17_S1024x16_0_0
abbrev ru0 : Rect S1024x17 := Rect.unit (s := S1024x17) ![0, 16] S1024x1.size inb_S1024x17_S1024x1_0_16

/-- The output block: the query in columns 0..15, the negated shift in column 16 (pieces last first). -/
def qext0 (q : Vec F S1024x16 .f32) (km : Vec F S1x1 .f32) : Vec F S1024x17 .bf16 :=
  View.canon [⟨ru0, k0_pay5 q km⟩, ⟨rq0, k0_pay4 q⟩]

/-- The scratch memref. -/
abbrev scM0 : Memref sig .tc .vmem S1x1 .f32 := Memref.whole cc0_scratch0

/-- The scoped buffers of the core that belong to the other call, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The region invariant before position `n`: before the first point the scoped rest and the generator register at
    anything; afterwards the scratch cell at what the point before left, the other scoped buffers and the register at anything. -/
def Phi0 (c : Dev nD) : (n : ℕ) → n ≤ cfg0.N → sProp 𝕄
  | 0, _ => Pipeline.ΦA spec0 c
  | n + 1, hn => iprop(owns (c : Thread nD τ) scM0 fullShare (km0 V c n hn) ∗ rest0 (F := F) c ∗ (∃ r, prngReg c r))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => qext0 (qblk0 V c t) (km0 V c t.val t.isLt)
  Φ t := Phi0 V c t.val (Nat.le_of_lt_succ t.isLt)
  q _ := fullShare
  owed _ := 0

end Cert.Kernel.Hand

end
-- ==== Proof.K.R0.lean ====
/-
  Region 0: the body's run in each of its three control cases, and the body obligation of the region's proof data.
-/
import proofs.«167948_g19181323944180_cont_8to1_1754_15_alg».proof.Proof.Gen.Kernel.Launch
import proofs.«167948_g19181323944180_cont_8to1_1754_15_alg».proof.Proof.Gen.Kernel.Skeleton
import proofs.«167948_g19181323944180_cont_8to1_1754_15_alg».proof.Proof.Gen.Kernel.Points
import proofs.«167948_g19181323944180_cont_8to1_1754_15_alg».proof.Proof.K.R0Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions, in closed form over the grid -/

/-- The first conditional's condition (is the grid coordinate 0?), as the body computes it from the coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional's condition (is the grid coordinate positive?). -/
abbrev cond0_1 (i : grid0.Coords) : Prop := (Scalar.cmpi .ne (Scalar.extui (Scalar.cmpi .sgt (BitVec.ofNat 32 (i 0).val) 0#32)) 0#32) = 1#1
/-- It holds at every point but the first. -/
theorem hcond0_1 : ∀ t : Fin cfg0.N, cond0_1 (grid0.coords t) ↔ t.val ≠ 0 :=
  (by decide +kernel : ∀ t : Fin grid0.N, cond0_1 (grid0.coords t) ↔ t.val ≠ 0)

/-- The third conditional's condition (is the grid coordinate 9?). -/
abbrev cond0_2 (i : grid0.Coords) : Prop := k0_cond3 i = 1#1
/-- It holds at the last point only. -/
theorem hcond0_2 : ∀ t : Fin cfg0.N, cond0_2 (grid0.coords t) ↔ t.val = 9 :=
  (by decide +kernel : ∀ t : Fin grid0.N, cond0_2 (grid0.coords t) ↔ t.val = 9)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last point the output window is idle, and its block is not written back there. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
/-- At the last point it is live. -/
theorem liveAt0_2 : ∀ t : Fin cfg0.N, cond0_2 (grid0.coords t) → cfg0.idle 2 (grid0.coords t) = false := by decide +kernel

/-! ## The class invariant, with the scratch cell as a memref -/

/-- The class invariant is the scratch cell owned at some contents, the other call's scoped buffers at some contents each,
    and the generator register at some state. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-! ## What the body finds in the input windows -/

/-- An input window's current buffer holds its block at every point, fetched there or not (unfetched, the block index
    has not moved), for any proof data over the entry contents that leave the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = qext0 (qblk0 V c t) (km0 V c t.val t.isLt) := by dsimp only [dat0]

theorem before0_0 (c : Dev nD) (t : Fin cfg0.N) (d) : (dat0 V c).before 0 t d = iblk0 V c 0 t :=
  before0_0_of V (dat0 V c) (show (dat0 V c).A 0 = V c (Pipeline.arrRef spec0 0) by dsimp only [dat0]) (after0_0 V c) t d
theorem before0_1 (c : Dev nD) (t : Fin cfg0.N) (d) : (dat0 V c).before 1 t d = iblk0 V c 1 t :=
  before0_1_of V (dat0 V c) (show (dat0 V c).A 1 = V c (Pipeline.arrRef spec0 1) by dsimp only [dat0]) (after0_1 V c) t d

/-! ## Covers -/

theorem hz2 : (![0, 0] : Fin 2 → Nat) = fun _ => 0 := funext fun a => by fin_cases a <;> rfl

/-- The two column rectangles cover the output block: cut into single columns they tile it. -/
theorem cover0_2 (p0 : Vec F S1024x1 .bf16) (p1 : Vec F S1024x16 .bf16) (y : S1024x17.Idx) :
    ∃ pc ∈ ([⟨ru0, p0⟩, ⟨rq0, p1⟩] : List (View.Piece (Elt F) S1024x17 .bf16)), y ∈ pc.1.set :=
  View.cover_of_tiledBy [⟨ru0, p0⟩, ⟨rq0, p1⟩] ![1024, 1] (by sl_kernel_rfl) y

/-- One whole-cell store covers the scratch cell. -/
theorem cover0_s (p : Vec F S1x1 .f32) (y : S1x1.Idx) :
    ∃ pc ∈ ([⟨Rect.unit (s := S1x1) ![0, 0] S1x1.size inb_S1x1_S1x1_0_0, p⟩] : List (View.Piece (Elt F) S1x1 .f32)), y ∈ pc.1.set :=
  ⟨_, List.mem_singleton_self _, View.mem_set_unit_zero hz2 inb_S1x1_S1x1_0_0 y⟩

/-! ## The body's run, case by case -/

/-- THE FIRST POINT (coordinate 0): on whole memrefs holding the query block `q`, the key block `k`, the output buffer at
    `xo` and the scratch cell at anything, the body stores the key block's largest squared row norm into the cell and
    leaves everything else as it was. The one store into the cell covers it, so the cell reads back the stored payload,
    and the payload's load of the key buffer reads `k`. -/
theorem run0_A (c : Dev nD) (E : Set ℕ) (i : grid0.Coords)
    (arg1 : Memref sig .tc .vmem S1024x16 .f32) (harg1 : arg1.IsWhole) (arg2 : Memref sig .tc .vmem S10000x16 .f32) (harg2 : arg2.IsWhole)
    (arg3 : Memref sig .tc .vmem S1024x17 .bf16) (harg3 : arg3.IsWhole) (arg4 : Memref sig .tc .vmem S1x1 .f32) (harg4 : arg4.IsWhole)
    (hc0 : cond0_0 i) (hc1 : ¬cond0_1 i) (hc2 : ¬cond0_2 i)
    (q : Vec F S1024x16 .f32) (k : Vec F S10000x16 .f32) (xo : Vec F S1024x17 .bf16) (K : PUnit → sProp 𝕄) :
    iprop(owns (c : Thread nD τ) arg1 fullShare q ∗ owns (c : Thread nD τ) arg2 fullShare k ∗ owns (c : Thread nD τ) arg3 fullShare xo
        ∗ (∃ d, owns (c : Thread nD τ) arg4 fullShare d)
        ∗ (iprop(owns (c : Thread nD τ) arg1 fullShare q ∗ owns (c : Thread nD τ) arg2 fullShare k ∗ owns (c : Thread nD τ) arg3 fullShare xo
            ∗ owns (c : Thread nD τ) arg4 fullShare (k0_pay2 k)) -∗ K ⟨⟩))
      ⊢ wp frame (wpE (defs₀ (F := F)) Variants.none c none) E (cc0__qext_body i arg1 harg1 arg2 harg2 arg3 harg3 arg4 harg4) K := by
  simp only [cc0__qext_body_eq_skeleton]; unfold cc0__qext_body_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  rw [View.read_writes_eq_canon _ _ _ (cover0_s _)]
  rw [View.canon_unit_zero hz2]
  simp only [View.readAt_eq_ld, harg2.read_unread, View.ld_unit_zero (S := S10000x16) hz2]

/-- A MIDDLE POINT (coordinate 1..8): the scratch cell holding `s`, the body stores the larger of `s` and the key block's
    largest squared row norm into the cell and leaves everything else as it was. -/
theorem run0_B (c : Dev nD) (E : Set ℕ) (i : grid0.Coords)
    (arg1 : Memref sig .tc .vmem S1024x16 .f32) (harg1 : arg1.IsWhole) (arg2 : Memref sig .tc .vmem S10000x16 .f32) (harg2 : arg2.IsWhole)
    (arg3 : Memref sig .tc .vmem S1024x17 .bf16) (harg3 : arg3.IsWhole) (arg4 : Memref sig .tc .vmem S1x1 .f32) (harg4 : arg4.IsWhole)
    (hc0 : ¬cond0_0 i) (hc1 : cond0_1 i) (hc2 : ¬cond0_2 i)
    (q : Vec F S1024x16 .f32) (k : Vec F S10000x16 .f32) (xo : Vec F S1024x17 .bf16) (s : Vec F S1x1 .f32) (K : PUnit → sProp 𝕄) :
    iprop(owns (c : Thread nD τ) arg1 fullShare q ∗ owns (c : Thread nD τ) arg2 fullShare k ∗ owns (c : Thread nD τ) arg3 fullShare xo
        ∗ owns (c : Thread nD τ) arg4 fullShare s
        ∗ (iprop(owns (c : Thread nD τ) arg1 fullShare q ∗ owns (c : Thread nD τ) arg2 fullShare k ∗ owns (c : Thread nD τ) arg3 fullShare xo
            ∗ owns (c : Thread nD τ) arg4 fullShare (k0_pay3 k s)) -∗ K ⟨⟩))
      ⊢ wp frame (wpE (defs₀ (F := F)) Variants.none c none) E (cc0__qext_body i arg1 harg1 arg2 harg2 arg3 harg3 arg4 harg4) K := by
  simp only [cc0__qext_body_eq_skeleton]; unfold cc0__qext_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  rw [View.read_writes_eq_canon _ _ _ (cover0_s _)]
  rw [View.canon_unit_zero hz2]
  simp only [View.readAt_eq_ld, harg2.read_unread, harg4.read_unread, View.ld_unit_zero (S := S10000x16) hz2, View.ld_unit_zero (S := S1x1) hz2]

/-- THE LAST POINT (coordinate 9): the scratch cell holding `s` and the output buffer anything, the body updates the cell
    as at a middle point, reads the updated cell back (a load through the rectangle of the one store before it: the
    stored payload), and stores the two column pieces of the output block, which cover it; so the buffer reads back the
    pieces' canonical contents, over `q` and the updated cell. -/
theorem run0_C (c : Dev nD) (E : Set ℕ) (i : grid0.Coords)
    (arg1 : Memref sig .tc .vmem S1024x16 .f32) (harg1 : arg1.IsWhole) (arg2 : Memref sig .tc .vmem S10000x16 .f32) (harg2 : arg2.IsWhole)
    (arg3 : Memref sig .tc .vmem S1024x17 .bf16) (harg3 : arg3.IsWhole) (arg4 : Memref sig .tc .vmem S1x1 .f32) (harg4 : arg4.IsWhole)
    (hc0 : ¬cond0_0 i) (hc1 : cond0_1 i) (hc2 : cond0_2 i)
    (q : Vec F S1024x16 .f32) (k : Vec F S10000x16 .f32) (s : Vec F S1x1 .f32) (K : PUnit → sProp 𝕄) :
    iprop(owns (c : Thread nD τ) arg1 fullShare q ∗ owns (c : Thread nD τ) arg2 fullShare k ∗ (∃ d, owns (c : Thread nD τ) arg3 fullShare d)
        ∗ owns (c : Thread nD τ) arg4 fullShare s
        ∗ (iprop(owns (c : Thread nD τ) arg1 fullShare q ∗ owns (c : Thread nD τ) arg2 fullShare k
            ∗ owns (c : Thread nD τ) arg3 fullShare (qext0 q (k0_pay3 k s))
            ∗ owns (c : Thread nD τ) arg4 fullShare (k0_pay3 k s)) -∗ K ⟨⟩))
      ⊢ wp frame (wpE (defs₀ (F := F)) Variants.none c none) E (cc0__qext_body i arg1 harg1 arg2 harg2 arg3 harg3 arg4 harg4) K := by
  simp only [cc0__qext_body_eq_skeleton]; unfold cc0__qext_body_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (cover0_2 _ _)]
    sl_unfold_words
    unfold qext0
    simp only [View.readAt_eq_ld, harg1.read_unread, harg2.read_unread, harg4.read_unread, View.ld_unit_zero (S := S1024x16) hz2,
      View.ld_unit_zero (S := S10000x16) hz2, View.ld_unit_zero (S := S1x1) hz2, View.readCov_unit_zero (S := S1x1) _ hz2]
  iexists _; isplitr
  swap; · iexact H4
  ipureintro
  sl_unfold_words
  rw [View.read_writes_eq_canon _ _ _ (cover0_s _)]
  rw [View.canon_unit_zero hz2]
  simp only [View.readAt_eq_ld, harg2.read_unread, harg4.read_unread, View.ld_unit_zero (S := S10000x16) hz2, View.ld_unit_zero (S := S1x1) hz2]

/-! ## The invariant and the carried scratch, point by point -/

/-- Before the first point the invariant is the class's. -/

theorem Phi0_zero (c : Dev nD) (n : ℕ) (h : n ≤ cfg0.N) (hz : n = 0) : Phi0 V c n h = Pipeline.ΦA spec0 c := by
  subst hz; rfl

/-- After point `n`: the scratch cell at what that point left. -/
theorem Phi0_succ (c : Dev nD) (n : ℕ) (hn : n < cfg0.N) :
    Phi0 V c (n + 1) hn = iprop(owns (c : Thread nD τ) scM0 fullShare (km0 V c n hn) ∗ rest0 (F := F) c ∗ (∃ r, prngReg c r)) := rfl

/-- Before a point that is not the first: the scratch cell at what the point before left. -/
theorem Phi0_pos (c : Dev nD) (n : ℕ) (h : n ≤ cfg0.N) (hz : n ≠ 0) :
    Phi0 V c n h = iprop(owns (c : Thread nD τ) scM0 fullShare (km0 V c (n - 1) (by omega)) ∗ rest0 (F := F) c ∗ (∃ r, prngReg c r)) := by
  cases n with
  | zero => exact absurd rfl hz
  | succ n => rfl

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- The carried maximum after the first point is its block's. -/
theorem km0_zero (c : Dev nD) (t : Fin cfg0.N) (hz : t.val = 0) : km0 V c t.val t.isLt = k0_pay2 (kblk0 V c t) := by
  obtain ⟨n, hn⟩ := t
  cases n with
  | zero => rfl
  | succ n => exact absurd hz (Nat.succ_ne_zero n)

/-- After a later point it is the larger of the point's own and what the point before left. -/
theorem km0_pos (c : Dev nD) (t : Fin cfg0.N) (hz : t.val ≠ 0) :
    km0 V c t.val t.isLt = k0_pay3 (kblk0 V c t) (km0 V c (t.val - 1) (Nat.lt_of_le_of_lt (Nat.sub_le _ _) t.isLt)) := by
  obtain ⟨n, hn⟩ := t
  cases n with
  | zero => exact absurd rfl hz
  | succ n => rfl

/-! ## The body obligation, at a generic point -/

/-- What the body is called with at point `t`: the invariant, the core's dues and each window's current buffer at what
    it then holds, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point. The input buffers hold their blocks. At the first point the invariant is the class's: the
    scratch cell at anything, and the cell is left at the first block's maximum. At a later point the cell holds what the
    point before left and is left at the larger of that and this block's maximum. Off the last point the output window is
    idle and not written back, so its buffer is handed back as found; at the last point it is live and is left at the
    output block over the query block and the cell's final contents. The other call's scoped buffers, the generator
    register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 10 := lt_of_lt_of_eq t.isLt (show cfg0.N = 10 from N_0)
  by_cases hz : t.val = 0
  · -- the first point: the scratch at anything, the output window idle
    have h9 : ¬t.val = 9 := by omega
    have hc0 : cond0_0 (grid0.coords t) := (hcond0_0 t).mpr hz
    have hc1 : ¬cond0_1 (grid0.coords t) := fun h => (hcond0_1 t).mp h hz
    have hc2 : ¬cond0_2 (grid0.coords t) := fun h => h9 ((hcond0_2 t).mp h)
    rw [Dat.leavesExact_idle (dat0 V c) 2 t (idleAt0_2 t hc2) (noFlush0_2 t hc2)]
    rw [Phi0_castSucc V c t, Phi0_zero V c _ _ hz, PhiA0_eq, km0_zero V c t hz]
    iintro ⟨⟨⟨HS, HR⟩, Hg⟩, Ho, ⟨%d0, H0⟩, ⟨%d1, H1⟩, ⟨%d2, H2⟩⟩
    iapply (run0_A c Set.univ (grid0.coords t) _ _ _ _ _ _ _ _ hc0 hc1 hc2 (qblk0 V c t) (kblk0 V c t) ((dat0 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · by_cases h9 : t.val = 9
    · -- the last point: the scratch updated, the output block written
      have hc0 : ¬cond0_0 (grid0.coords t) := fun h => hz ((hcond0_0 t).mp h)
      have hc1 : cond0_1 (grid0.coords t) := (hcond0_1 t).mpr hz
      have hc2 : cond0_2 (grid0.coords t) := (hcond0_2 t).mpr h9
      rw [show (dat0 V c).leavesExact 2 t = owns (c : Thread nD τ) (st0_2 t) fullShare ((dat0 V c).after 2 t) from by
        unfold Dat.leavesExact; rw [liveAt0_2 t hc2], after0_2]
      rw [Phi0_castSucc V c t, Phi0_pos V c _ _ hz, km0_pos V c t hz]
      iintro ⟨⟨HS, HR, Hg⟩, Ho, ⟨%d0, H0⟩, ⟨%d1, H1⟩, ⟨%d2, H2⟩⟩
      iapply (run0_C c Set.univ (grid0.coords t) _ _ _ _ _ _ _ _ hc0 hc1 hc2 (qblk0 V c t) (kblk0 V c t) (km0 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · -- a middle point: the scratch updated, the output window idle
      have hc0 : ¬cond0_0 (grid0.coords t) := fun h => hz ((hcond0_0 t).mp h)
      have hc1 : cond0_1 (grid0.coords t) := (hcond0_1 t).mpr hz
      have hc2 : ¬cond0_2 (grid0.coords t) := fun h => h9 ((hcond0_2 t).mp h)
      rw [Dat.leavesExact_idle (dat0 V c) 2 t (idleAt0_2 t hc2) (noFlush0_2 t hc2)]
      rw [Phi0_castSucc V c t, Phi0_pos V c _ _ hz, km0_pos V c t hz]
      iintro ⟨⟨HS, HR, Hg⟩, Ho, ⟨%d0, H0⟩, ⟨%d1, H1⟩, ⟨%d2, H2⟩⟩
      iapply (run0_B c Set.univ (grid0.coords t) _ _ _ _ _ _ _ _ hc0 hc1 hc2 (qblk0 V c t) (kblk0 V c t) ((dat0 V c).before 2 t d2) (km0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The proof data's arrays are the region-entry contents. -/
theorem A_eq0 (c : Dev nD) (w : Fin cfg0.W) : (dat0 V c).A w = V c (Pipeline.arrRef spec0 w) := by
  dsimp only [dat0]

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]

/-- After the last point the invariant gives the class's back: the scratch's contents are forgotten. -/
theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 10 := N_0; omega), PhiA0_eq]
  iintro ⟨HS, HR, Hg⟩
  isplitl [HS HR]
  · isplitl [HS]; · iexists _; iexact HS
    iexact HR
  iexact Hg

end Cert.Kernel.Hand

end
-- ==== Proof.K.R1Defs.lean ====
/-
  The second region (the streaming call, fifty grid points over blocks of 2000 key and value rows), as data.
  A 1024 x 17 scratch carries the accumulator: the first point resets it to zero and adds its block's product
  exp(qext . [k | 1]^T) . [v | 1]; every later point adds its own block's product to what it finds. The last point
  also writes the output block: columns 0..15 of the accumulator divided by column 16; at the other points the
  output window is idle. Everything is stated at the contents `V` the region is entered from.
-/
import proofs.«167948_g19181323944180_cont_8to1_1754_15_alg».proof.Proof.Gen.Kernel.Launch
import proofs.«167948_g19181323944180_cont_8to1_1754_15_alg».proof.Proof.Gen.Kernel.Skeleton
import proofs.«167948_g19181323944180_cont_8to1_1754_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The extended query block (the whole 1024 x 17 array at every point). -/
abbrev qeblk1 (c : Dev nD) (t : Fin cfg1.N) : Vec F S1024x17 .bf16 := iblk1 V c 0 t
/-- The block of 2000 key rows at point `t`. -/
abbrev kblk1 (c : Dev nD) (t : Fin cfg1.N) : Vec F S2000x16 .f32 := iblk1 V c 1 t
/-- The block of 2000 value rows at point `t`. -/
abbrev vblk1 (c : Dev nD) (t : Fin cfg1.N) : Vec F S2000x16 .f32 := iblk1 V c 2 t

/-- The accumulator after point `n`: the sum over the blocks 0..n of each block's product, from zero. -/
def acc1 (c : Dev nD) : (n : ℕ) → n < cfg1.N → Vec F S1024x17 .f32
  | 0, h => k1_pay2 (kblk1 V c ⟨0, h⟩) (qeblk1 V c ⟨0, h⟩) (vblk1 V c ⟨0, h⟩) (k1_pay1 (F := F))
  | n + 1, h => k1_pay2 (kblk1 V c ⟨n + 1, h⟩) (qeblk1 V c ⟨n + 1, h⟩) (vblk1 V c ⟨n + 1, h⟩) (acc1 c n (Nat.lt_of_succ_lt h))

/-- The two column rectangles of the accumulator: columns 0..15 (the numerators) and column 16 (the denominators). -/
abbrev ra1 : Rect S1024x17 := Rect.unit (s := S1024x17) ![0, 0] S1024x16.size inb_S1024x17_S1024x16_0_0
abbrev rb1 : Rect S1024x17 := Rect.unit (s := S1024x17) ![0, 16] S1024x1.size inb_S1024x17_S1024x1_0_16

/-- The output block from an accumulator: numerators over denominators, row by row. -/
def out1 (acc : Vec F S1024x17 .f32) : Vec F S1024x16 .f32 :=
  k1_pay3 (View.ld acc ra1) (View.ld acc rb1)

/-- The scratch memref. -/
abbrev scM1 : Memref sig .tc .vmem S1024x17 .f32 := Memref.whole cc1_scratch0

/-- The scoped buffers of the core that belong to the other call, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f))

/-- The region invariant before position `n`: before the first point the scoped rest and the generator register at
    anything; afterwards the accumulator at what the point before left, the other scoped buffers and the register at anything. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (acc1 V c t.val t.isLt)
  Φ t := Phi1 V c t.val (Nat.le_of_lt_succ t.isLt)
  q _ := fullShare
  owed _ := 0

end Cert.Kernel.Hand

end
-- ==== Proof.K.R1.lean ====
/-
  Region 1: the body's run in each of its three control cases, and the body obligation of the region's proof data.
-/
import proofs.«167948_g19181323944180_cont_8to1_1754_15_alg».proof.Proof.Gen.Kernel.Launch
import proofs.«167948_g19181323944180_cont_8to1_1754_15_alg».proof.Proof.Gen.Kernel.Skeleton
import proofs.«167948_g19181323944180_cont_8to1_1754_15_alg».proof.Proof.Gen.Kernel.Points
import proofs.«167948_g19181323944180_cont_8to1_1754_15_alg».proof.Proof.K.R1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, in closed form over the grid -/

/-- The first conditional's condition (the point is the first), as the body computes it from the coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The last conditional's condition (the point is the last). -/
abbrev cond1_1 (i : grid1.Coords) : Prop := k1_cond2 i = 1#1
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, at every point but the last. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging memrefs at a point -/

abbrev ms1_0 (t : Fin cfg1.N) : Memref sig .tc .vmem S1024x17 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x16 .f32 := win1_3.stage (cfg1.slots t 3)
abbrev hs1_3 (t : Fin cfg1.N) : (ms1_3 t).IsWhole := hstage1_3 ((cfg1.slots t 3).cast nbuf1_3)

/-- The zero offsets of a rank-2 rectangle, however spelt. -/
theorem zeroOff1 : (![0, 0] : Fin 2 → Nat) = fun _ => 0 := funext fun a => by fin_cases a <;> rfl

/-- A list of pieces whose last write is through the whole-shape rectangle at zero offsets covers the shape. -/
theorem coverHead1 {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-- The proof data's arrays are the region-entry contents. -/
theorem A_eq1 (c : Dev nD) (w : Fin cfg1.W) : (dat1 V c).A w = V c (Pipeline.arrRef spec1 w) := by
  dsimp only [dat1]

/-! ## The body in its three control cases

The grid coordinate decides two conditionals: the first is taken at point 0 only, the last at point 49 only. In every
case the body loads the key block, the extended query and the value block, loads the scratch and stores the scratch
plus the block's product `exp(qext . [k | 1]^T) . [v | 1]` back. Each case is stated on any whole memrefs, with
the contents every buffer ends with written out. -/

set_option maxHeartbeats 1000000 in
/-- The first point (the first conditional taken, the last not). The scratch, held at anything, is reset to zero and
    then gets the block's product added to that zero; the inputs' buffers and the output buffer come back as they were. -/
theorem run1_A (c : Dev nD) (i : grid1.Coords)
    (arg1 : Memref sig .tc .vmem S1024x17 .bf16) (harg1 : arg1.IsWhole) (arg2 : Memref sig .tc .vmem S2000x16 .f32) (harg2 : arg2.IsWhole)
    (arg3 : Memref sig .tc .vmem S2000x16 .f32) (harg3 : arg3.IsWhole) (arg4 : Memref sig .tc .vmem S1024x16 .f32) (harg4 : arg4.IsWhole)
    (arg5 : Memref sig .tc .vmem S1024x17 .f32) (harg5 : arg5.IsWhole) (hc0 : cond1_0 i) (hc1 : ¬cond1_1 i)
    (x0 : Vec F S1024x17 .bf16) (x1 : Vec F S2000x16 .f32) (x2 : Vec F S2000x16 .f32) (xi3 : Vec F S1024x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x1 x0 x2 (k1_pay1 (F := F)))) -∗ K ⟨⟩))
      ⊢ wp frame (wpE (defs₀ (F := F)) Variants.none c none) E (cc1__main_body i arg1 harg1 arg2 harg2 arg3 harg3 arg4 harg4 arg5 harg5) K := by
  simp only [cc1__main_body_eq_skeleton]; unfold cc1__main_body_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS
  ipureintro
  sl_unfold_words
  rw [View.read_writes_eq_canon _ _ _ (coverHead1 (S := S1024x17) zeroOff1 _ _ _)]
  rw [View.canon_cons_unit_zero zeroOff1]
  simp only [View.readAt_eq_ld, harg1.read_unread, harg2.read_unread, harg3.read_unread, View.ld_unit_zero (S := S1024x17) zeroOff1, View.ld_unit_zero (S := S2000x16) zeroOff1, View.readCov_unit_zero (S := S1024x17) _ zeroOff1]

set_option maxHeartbeats 1000000 in
/-- A middle point (neither conditional taken). The scratch, at what the point before left, gets the block's product
    added; the inputs' buffers and the output buffer come back as they were. -/
theorem run1_B (c : Dev nD) (i : grid1.Coords)
    (arg1 : Memref sig .tc .vmem S1024x17 .bf16) (harg1 : arg1.IsWhole) (arg2 : Memref sig .tc .vmem S2000x16 .f32) (harg2 : arg2.IsWhole)
    (arg3 : Memref sig .tc .vmem S2000x16 .f32) (harg3 : arg3.IsWhole) (arg4 : Memref sig .tc .vmem S1024x16 .f32) (harg4 : arg4.IsWhole)
    (arg5 : Memref sig .tc .vmem S1024x17 .f32) (harg5 : arg5.IsWhole) (hc0 : ¬cond1_0 i) (hc1 : ¬cond1_1 i)
    (x0 : Vec F S1024x17 .bf16) (x1 : Vec F S2000x16 .f32) (x2 : Vec F S2000x16 .f32) (xi3 : Vec F S1024x16 .f32) (xs : Vec F S1024x17 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x1 x0 x2 xs)) -∗ K ⟨⟩))
      ⊢ wp frame (wpE (defs₀ (F := F)) Variants.none c none) E (cc1__main_body i arg1 harg1 arg2 harg2 arg3 harg3 arg4 harg4 arg5 harg5) K := by
  simp only [cc1__main_body_eq_skeleton]; unfold cc1__main_body_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS
  ipureintro
  rw [View.read_writes_eq_canon _ _ _ (coverHead1 (S := S1024x17) zeroOff1 _ _ _)]
  rw [View.canon_unit_zero zeroOff1]
  simp only [View.readAt_eq_ld, harg1.read_unread, harg2.read_unread, harg3.read_unread, harg5.read_unread, View.ld_unit_zero (S := S1024x17) zeroOff1, View.ld_unit_zero (S := S2000x16) zeroOff1]

set_option maxHeartbeats 1000000 in
/-- The last point (the first conditional not taken, the last taken). The scratch gets the block's product added as at
    a middle point; then the output buffer, held at anything, gets the new accumulator's columns 0..15 divided by its
    column 16. -/
theorem run1_C (c : Dev nD) (i : grid1.Coords)
    (arg1 : Memref sig .tc .vmem S1024x17 .bf16) (harg1 : arg1.IsWhole) (arg2 : Memref sig .tc .vmem S2000x16 .f32) (harg2 : arg2.IsWhole)
    (arg3 : Memref sig .tc .vmem S2000x16 .f32) (harg3 : arg3.IsWhole) (arg4 : Memref sig .tc .vmem S1024x16 .f32) (harg4 : arg4.IsWhole)
    (arg5 : Memref sig .tc .vmem S1024x17 .f32) (harg5 : arg5.IsWhole) (hc0 : ¬cond1_0 i) (hc1 : cond1_1 i)
    (x0 : Vec F S1024x17 .bf16) (x1 : Vec F S2000x16 .f32) (x2 : Vec F S2000x16 .f32) (xs : Vec F S1024x17 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (out1 (k1_pay2 x1 x0 x2 xs)) ∗ owns (c : Thread nD τ) arg5 fullShare (k1_pay2 x1 x0 x2 xs)) -∗ K ⟨⟩))
      ⊢ wp frame (wpE (defs₀ (F := F)) Variants.none c none) E (cc1__main_body i arg1 harg1 arg2 harg2 arg3 harg3 arg4 harg4 arg5 harg5) K := by
  simp only [cc1__main_body_eq_skeleton]; unfold cc1__main_body_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2
  obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [View.read_writes_eq_canon _ _ _ (coverHead1 (S := S1024x16) zeroOff1 _ _ _)]
    rw [View.canon_unit_zero zeroOff1]
    unfold out1
    simp only [View.readCov_eq_canon', View.canon_unit_zero (S := S1024x17) zeroOff1, View.readAt_eq_ld, harg1.read_unread, harg2.read_unread, harg3.read_unread, harg5.read_unread, View.ld_unit_zero (S := S1024x17) zeroOff1, View.ld_unit_zero (S := S2000x16) zeroOff1]
  iexists _; isplitr
  swap; · iexact HS
  ipureintro
  sl_unfold_words
  rw [View.read_writes_eq_canon _ _ _ (coverHead1 (S := S1024x17) zeroOff1 _ _ _)]
  rw [View.canon_unit_zero zeroOff1]
  simp only [View.readAt_eq_ld, harg1.read_unread, harg2.read_unread, harg3.read_unread, harg5.read_unread, View.ld_unit_zero (S := S1024x17) zeroOff1, View.ld_unit_zero (S := S2000x16) zeroOff1]

/-! ## The invariant, unfolded -/

/-- The class invariant with the scratch as a memref owned at some contents: the five scoped buffers of the other
    call come first in the chain, the scratch last. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

theorem Phi1_zero (c : Dev nD) (n : ℕ) (h : n ≤ cfg1.N) (hz : n = 0) : Phi1 V c n h = Pipeline.ΦA spec1 c := by
  subst hz; rfl

/-- After point `n`: the scratch at what that point left. -/
theorem Phi1_succ (c : Dev nD) (n : ℕ) (hn : n < cfg1.N) :
    Phi1 V c (n + 1) hn = iprop(owns (c : Thread nD τ) scM1 fullShare (acc1 V c n hn) ∗ rest1 (F := F) c ∗ (∃ r, prngReg c r)) := rfl

/-- Before a point that is not the first: the scratch at what the point before left. -/
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-! ## The accumulator at a point, by the point's case -/

/-- At the first point the accumulator is the block's product added to zero. -/
theorem acc1_first (c : Dev nD) (t : Fin cfg1.N) (hz : t.val = 0) :
    acc1 V c t.val t.isLt = k1_pay2 (kblk1 V c t) (qeblk1 V c t) (vblk1 V c t) (k1_pay1 (F := F)) := by
  obtain ⟨n, hn⟩ := t
  cases n with
  | zero => rfl
  | succ n => exact absurd hz (Nat.succ_ne_zero n)

/-- At a later point it is the block's product added to what the point before left. -/
theorem acc1_later (c : Dev nD) (t : Fin cfg1.N) (hz : t.val ≠ 0) :
    acc1 V c t.val t.isLt = k1_pay2 (kblk1 V c t) (qeblk1 V c t) (vblk1 V c t) (acc1 V c (t.val - 1) (Nat.lt_of_le_of_lt (Nat.sub_le _ _) t.isLt)) := by
  obtain ⟨n, hn⟩ := t
  cases n with
  | zero => exact absurd rfl hz
  | succ n => rfl

/-! ## What the windows hold before and after the body -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (acc1 V c t.val t.isLt) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`: the invariant, what the core owes, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's position says which of the three
    control cases runs; the invariant hands the scratch over at what the point before left (at anything at the first
    point) and takes it back at this point's accumulator; the output buffer is handed back untouched everywhere
    but at the last point, where it gets the quotient block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val = 0
  · have h1 : ¬t.val = 49 := by omega
    rw [Dat.leavesExact_idle (dat1 V c) 3 t (idleAt1_3 t (fun h => h1 ((hcond1_1 t).mp h))) (noFlush1_3 t (fun h => h1 ((hcond1_1 t).mp h)))]
    rw [acc1_first V c t h0]
    rw [Phi1_castSucc V c t, Phi1_zero V c _ _ h0, PhiA1_eq]
    iintro ⟨⟨⟨R0, R1, R2, R3, R4, HS⟩, Hg⟩, Ho, ⟨%d0, H0⟩, ⟨%d1, H1⟩, ⟨%d2, H2⟩, ⟨%d3, H3⟩⟩
    iapply (run1_A c (grid1.coords t) _ _ _ _ _ _ _ _ scM1 (Memref.isWhole_whole _) ((hcond1_0 t).mpr h0) (fun h => h1 ((hcond1_1 t).mp h))
      (qeblk1 V c t) (kblk1 V c t) (vblk1 V c t) _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS R0 R1 R2 R3 R4 Hg]
    · isplitl [HS]; · iexact HS
      isplitl [R0 R1 R2 R3 R4]
      · unfold rest1
        isplitl [R0]; · iexact R0
        isplitl [R1]; · iexact R1
        isplitl [R2]; · iexact R2
        isplitl [R3]; · iexact R3
        iexact R4
      iexact Hg
    isplitl [Ho]; · iexact Ho
    isplitl [H0]; · iexact H0
    isplitl [H1]; · iexact H1
    isplitl [H2]; · iexact H2
    iexists _; iexact H3
  · by_cases h1 : t.val = 49
    · rw [show (dat1 V c).leavesExact 3 t = owns (c : Thread nD τ) (ms1_3 t) fullShare ((dat1 V c).after 3 t) from by
        unfold Dat.leavesExact; rw [liveAt1_3 t ((hcond1_1 t).mpr h1)], after1_3]
      rw [acc1_later V c t h0]
      rw [Phi1_castSucc V c t, Phi1_pos V c _ _ h0]
      iintro ⟨⟨HS, HR, Hg⟩, Ho, ⟨%d0, H0⟩, ⟨%d1, H1⟩, ⟨%d2, H2⟩, ⟨%d3, H3⟩⟩
      iapply (run1_C c (grid1.coords t) _ _ _ _ _ _ _ _ scM1 (Memref.isWhole_whole _) (fun h => h0 ((hcond1_0 t).mp h)) ((hcond1_1 t).mpr h1)
        (qeblk1 V c t) (kblk1 V c t) (vblk1 V c t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [acc1_later V c t h0]
      rw [Phi1_castSucc V c t, Phi1_pos V c _ _ h0]
      iintro ⟨⟨HS, HR, Hg⟩, Ho, ⟨%d0, H0⟩, ⟨%d1, H1⟩, ⟨%d2, H2⟩, ⟨%d3, H3⟩⟩
      iapply (run1_B c (grid1.coords t) _ _ _ _ _ _ _ _ scM1 (Memref.isWhole_whole _) (fun h => h0 ((hcond1_0 t).mp h)) (fun h => h1 ((hcond1_1 t).mp h))
        (qeblk1 V c t) (kblk1 V c t) (vblk1 V c t) _ (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]

/-- After the last point the invariant gives the class's back: the scratch's contents are forgotten. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 50 := N_1; omega), PhiA1_eq]
  unfold rest1
  iintro ⟨HS, ⟨R0, R1, R2, R3, R4⟩, Hg⟩
  isplitl [HS R0 R1 R2 R3 R4]
  · isplitl [R0]; · iexact R0
    isplitl [R1]; · iexact R1
    isplitl [R2]; · iexact R2
    isplitl [R3]; · iexact R3
    isplitl [R4]; · iexact R4
    iexists _; iexact HS
  iexact Hg

end Cert.Kernel.Hand

end
-- ==== Proof.K.Main.lean ====
/-
  The whole program: its two regions in order, over the contents of the unscoped buffers at the three boundaries
  (at launch; after the first region, whose output array then holds the extended query; after the second, whose
  output array holds the result), and the run: every weakly fair execution terminates with every unscoped buffer
  at the last boundary's contents.
-/
import proofs.«167948_g19181323944180_cont_8to1_1754_15_alg».proof.Proof.Gen.Kernel.Launch
import proofs.«167948_g19181323944180_cont_8to1_1754_15_alg».proof.Proof.Gen.Kernel.Skeleton
import proofs.«167948_g19181323944180_cont_8to1_1754_15_alg».proof.Proof.Gen.Kernel.Points
import proofs.«167948_g19181323944180_cont_8to1_1754_15_alg».proof.Proof.K.R0
import proofs.«167948_g19181323944180_cont_8to1_1754_15_alg».proof.Proof.K.R1
import proofs.«167948_g19181323944180_cont_8to1_1754_15_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the second region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W0`, left at `W1`. Its arrays are
    split out of the unscoped buffers and put back at the exit contents; the generator register goes into the
    region invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    iintro ⟨Hp, -, Hr⟩
    iapply (hin0 (V0 m) c)
    unfold Pipeline.ΦA
    isplitl [Hr]; · iexact Hr
    iexact Hp
  hout c := by
    rw [Pipeline.ownSems0_none, show (pdats m 0 c).Φ (Fin.last _) = (dat0 (V0 m) c).Φ (Fin.last cfg0.N) from rfl]
    have hgive := hout0 (V0 m) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are
    split out of the unscoped buffers and put back at the exit contents; the generator register goes into the
    region invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    iintro ⟨Hp, -, Hr⟩
    iapply (hin1 (V1 m) c)
    unfold Pipeline.ΦA
    isplitl [Hr]; · iexact Hr
    iexact Hp
  hout c := by
    rw [Pipeline.ownSems0_none, show (pdats m 1 c).Φ (Fin.last _) = (dat1 (V1 m) c).Φ (Fin.last cfg1.N) from rfl]
    have hgive := hout1 (V1 m) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## The arguments end as launched, and where the result is -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W1_main_arg2 (c : Dev nD) : W1 m c (Proc.devRef .tc main_arg2) = m ((c : Thread nD τ).loc main_arg2) :=
  W1_of_ne m c main_arg2 (by decide)
theorem W2_main_arg1 (c : Dev nD) : W2 m c (Proc.devRef .tc main_arg1) = m ((c : Thread nD τ).loc main_arg1) :=
  ((W2_arr m c 1).trans (((dat1 (V1 m) c).arrAt_in 1 rfl _).trans (A_eq1 (V1 m) c 1))).trans (W1_main_arg1 m c)
theorem W2_main_arg2 (c : Dev nD) : W2 m c (Proc.devRef .tc main_arg2) = m ((c : Thread nD τ).loc main_arg2) :=
  ((W2_arr m c 2).trans (((dat1 (V1 m) c).arrAt_in 2 rfl _).trans (A_eq1 (V1 m) c 2))).trans (W1_main_arg2 m c)
/-- The result array after the run is the second region's output array after its last point. -/
theorem W2_main_v0 (c : Dev nD) : W2 m c (Proc.devRef .tc main_v0) = (dat1 (V1 m) c).arrAt 3 cfg1.N := W2_arr m c 3
/-- The extended query the second region reads is the first region's output array after its last point. -/
theorem V1_main_call0_v0 (c : Dev nD) : V1 m c main_call0_v0 = (dat0 (V0 m) c).arrAt 2 cfg0.N := W1_arr m c 2

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

end Cert.Kernel.Hand

end
-- ==== Proof.KI.R0Defs.lean ====
/-
  The first region (the prologue call, ten grid points over blocks of 10000 key rows), as data.
  A one-cell scratch carries the running maximum of the squared key-row norms: the first point stores the block's
  maximum, every later point the maximum of what it finds and its own block's. The last point also writes the
  output block [q | -sqrt(|q_b|^2 * max)] (two column pieces of the 1024 x 17 buffer); at the other points the
  output window is idle. Everything is stated at the contents `V` the region is entered from.
-/
import proofs.«167948_g19181323944180_cont_8to1_1754_15_alg».proof.Proof.Gen.KernelIdeal.Launch
import proofs.«167948_g19181323944180_cont_8to1_1754_15_alg».proof.Proof.Gen.KernelIdeal.Skeleton
import proofs.«167948_g19181323944180_cont_8to1_1754_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query block (the whole query array at every point). -/
abbrev qblk0 (c : Dev nD) (t : Fin cfg0.N) : Vec F S1024x16 .f32 := iblk0 V c 0 t
/-- The block of 10000 key rows at point `t`. -/
abbrev kblk0 (c : Dev nD) (t : Fin cfg0.N) : Vec F S10000x16 .f32 := iblk0 V c 1 t

/-- The scratch cell after point `n`: the maximum over the key blocks 0..n of each block's largest squared row norm. -/
def km0 (c : Dev nD) : (n : ℕ) → n < cfg0.N → Vec F S1x1 .f32
  | 0, h => k0_pay2 (kblk0 V c ⟨0, h⟩)
  | n + 1, h => k0_pay3 (kblk0 V c ⟨n + 1, h⟩) (km0 c n (Nat.lt_of_succ_lt h))

/-- The two column rectangles of the output buffer: columns 0..15 and column 16. -/
abbrev rq0 : Rect S1024x17 := Rect.unit (s := S1024x17) ![0, 0] S1024x16.size inb_S1024x17_S1024x16_0_0
abbrev ru0 : Rect S1024x17 := Rect.unit (s := S1024x17) ![0, 16] S1024x1.size inb_S1024x17_S1024x1_0_16

/-- The output block: the query in columns 0..15, the negated shift in column 16 (pieces last first). -/
def qext0 (q : Vec F S1024x16 .f32) (km : Vec F S1x1 .f32) : Vec F S1024x17 .bf16 :=
  View.canon [⟨ru0, k0_pay5 q km⟩, ⟨rq0, k0_pay4 q⟩]

/-- The scratch memref. -/
abbrev scM0 : Memref sig .tc .vmem S1x1 .f32 := Memref.whole cc0_scratch0

/-- The scoped buffers of the core that belong to the other call, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The region invariant before position `n`: before the first point the scoped rest and the generator register at
    anything; afterwards the scratch cell at what the point before left, the other scoped buffers and the register at anything. -/
def Phi0 (c : Dev nD) : (n : ℕ) → n ≤ cfg0.N → sProp 𝕄
  | 0, _ => Pipeline.ΦA spec0 c
  | n + 1, hn => iprop(owns (c : Thread nD τ) scM0 fullShare (km0 V c n hn) ∗ rest0 (F := F) c ∗ (∃ r, prngReg c r))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => qext0 (qblk0 V c t) (km0 V c t.val t.isLt)
  Φ t := Phi0 V c t.val (Nat.le_of_lt_succ t.isLt)
  q _ := fullShare
  owed _ := 0

end Cert.KernelIdeal.Hand

end
-- ==== Proof.KI.R0.lean ====
/-
  Region 0: the body's run in each of its three control cases, and the body obligation of the region's proof data.
-/
import proofs.«167948_g19181323944180_cont_8to1_1754_15_alg».proof.Proof.Gen.KernelIdeal.Launch
import proofs.«167948_g19181323944180_cont_8to1_1754_15_alg».proof.Proof.Gen.KernelIdeal.Skeleton
import proofs.«167948_g19181323944180_cont_8to1_1754_15_alg».proof.Proof.Gen.KernelIdeal.Points
import proofs.«167948_g19181323944180_cont_8to1_1754_15_alg».proof.Proof.KI.R0Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions, in closed form over the grid -/

/-- The first conditional's condition (is the grid coordinate 0?), as the body computes it from the coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional's condition (is the grid coordinate positive?). -/
abbrev cond0_1 (i : grid0.Coords) : Prop := (Scalar.cmpi .ne (Scalar.extui (Scalar.cmpi .sgt (BitVec.ofNat 32 (i 0).val) 0#32)) 0#32) = 1#1
/-- It holds at every point but the first. -/
theorem hcond0_1 : ∀ t : Fin cfg0.N, cond0_1 (grid0.coords t) ↔ t.val ≠ 0 :=
  (by decide +kernel : ∀ t : Fin grid0.N, cond0_1 (grid0.coords t) ↔ t.val ≠ 0)

/-- The third conditional's condition (is the grid coordinate 9?). -/
abbrev cond0_2 (i : grid0.Coords) : Prop := k0_cond3 i = 1#1
/-- It holds at the last point only. -/
theorem hcond0_2 : ∀ t : Fin cfg0.N, cond0_2 (grid0.coords t) ↔ t.val = 9 :=
  (by decide +kernel : ∀ t : Fin grid0.N, cond0_2 (grid0.coords t) ↔ t.val = 9)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last point the output window is idle, and its block is not written back there. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
/-- At the last point it is live. -/
theorem liveAt0_2 : ∀ t : Fin cfg0.N, cond0_2 (grid0.coords t) → cfg0.idle 2 (grid0.coords t) = false := by decide +kernel

/-! ## The class invariant, with the scratch cell as a memref -/

/-- The class invariant is the scratch cell owned at some contents, the other call's scoped buffers at some contents each,
    and the generator register at some state. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-! ## What the body finds in the input windows -/

/-- An input window's current buffer holds its block at every point, fetched there or not (unfetched, the block index
    has not moved), for any proof data over the entry contents that leave the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = qext0 (qblk0 V c t) (km0 V c t.val t.isLt) := by dsimp only [dat0]

theorem before0_0 (c : Dev nD) (t : Fin cfg0.N) (d) : (dat0 V c).before 0 t d = iblk0 V c 0 t :=
  before0_0_of V (dat0 V c) (show (dat0 V c).A 0 = V c (Pipeline.arrRef spec0 0) by dsimp only [dat0]) (after0_0 V c) t d
theorem before0_1 (c : Dev nD) (t : Fin cfg0.N) (d) : (dat0 V c).before 1 t d = iblk0 V c 1 t :=
  before0_1_of V (dat0 V c) (show (dat0 V c).A 1 = V c (Pipeline.arrRef spec0 1) by dsimp only [dat0]) (after0_1 V c) t d

/-! ## Covers -/

theorem hz2 : (![0, 0] : Fin 2 → Nat) = fun _ => 0 := funext fun a => by fin_cases a <;> rfl

/-- The two column rectangles cover the output block: cut into single columns they tile it. -/
theorem cover0_2 (p0 : Vec F S1024x1 .bf16) (p1 : Vec F S1024x16 .bf16) (y : S1024x17.Idx) :
    ∃ pc ∈ ([⟨ru0, p0⟩, ⟨rq0, p1⟩] : List (View.Piece (Elt F) S1024x17 .bf16)), y ∈ pc.1.set :=
  View.cover_of_tiledBy [⟨ru0, p0⟩, ⟨rq0, p1⟩] ![1024, 1] (by sl_kernel_rfl) y

/-- One whole-cell store covers the scratch cell. -/
theorem cover0_s (p : Vec F S1x1 .f32) (y : S1x1.Idx) :
    ∃ pc ∈ ([⟨Rect.unit (s := S1x1) ![0, 0] S1x1.size inb_S1x1_S1x1_0_0, p⟩] : List (View.Piece (Elt F) S1x1 .f32)), y ∈ pc.1.set :=
  ⟨_, List.mem_singleton_self _, View.mem_set_unit_zero hz2 inb_S1x1_S1x1_0_0 y⟩

/-! ## The body's run, case by case -/

/-- THE FIRST POINT (coordinate 0): on whole memrefs holding the query block `q`, the key block `k`, the output buffer at
    `xo` and the scratch cell at anything, the body stores the key block's largest squared row norm into the cell and
    leaves everything else as it was. The one store into the cell covers it, so the cell reads back the stored payload,
    and the payload's load of the key buffer reads `k`. -/
theorem run0_A (c : Dev nD) (E : Set ℕ) (i : grid0.Coords)
    (arg1 : Memref sig .tc .vmem S1024x16 .f32) (harg1 : arg1.IsWhole) (arg2 : Memref sig .tc .vmem S10000x16 .f32) (harg2 : arg2.IsWhole)
    (arg3 : Memref sig .tc .vmem S1024x17 .bf16) (harg3 : arg3.IsWhole) (arg4 : Memref sig .tc .vmem S1x1 .f32) (harg4 : arg4.IsWhole)
    (hc0 : cond0_0 i) (hc1 : ¬cond0_1 i) (hc2 : ¬cond0_2 i)
    (q : Vec F S1024x16 .f32) (k : Vec F S10000x16 .f32) (xo : Vec F S1024x17 .bf16) (K : PUnit → sProp 𝕄) :
    iprop(owns (c : Thread nD τ) arg1 fullShare q ∗ owns (c : Thread nD τ) arg2 fullShare k ∗ owns (c : Thread nD τ) arg3 fullShare xo
        ∗ (∃ d, owns (c : Thread nD τ) arg4 fullShare d)
        ∗ (iprop(owns (c : Thread nD τ) arg1 fullShare q ∗ owns (c : Thread nD τ) arg2 fullShare k ∗ owns (c : Thread nD τ) arg3 fullShare xo
            ∗ owns (c : Thread nD τ) arg4 fullShare (k0_pay2 k)) -∗ K ⟨⟩))
      ⊢ wp frame (wpE (defs₀ (F := F)) Variants.none c none) E (cc0__qext_body i arg1 harg1 arg2 harg2 arg3 harg3 arg4 harg4) K := by
  simp only [cc0__qext_body_eq_skeleton]; unfold cc0__qext_body_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  rw [View.read_writes_eq_canon _ _ _ (cover0_s _)]
  rw [View.canon_unit_zero hz2]
  simp only [View.readAt_eq_ld, harg2.read_unread, View.ld_unit_zero (S := S10000x16) hz2]

/-- A MIDDLE POINT (coordinate 1..8): the scratch cell holding `s`, the body stores the larger of `s` and the key block's
    largest squared row norm into the cell and leaves everything else as it was. -/
theorem run0_B (c : Dev nD) (E : Set ℕ) (i : grid0.Coords)
    (arg1 : Memref sig .tc .vmem S1024x16 .f32) (harg1 : arg1.IsWhole) (arg2 : Memref sig .tc .vmem S10000x16 .f32) (harg2 : arg2.IsWhole)
    (arg3 : Memref sig .tc .vmem S1024x17 .bf16) (harg3 : arg3.IsWhole) (arg4 : Memref sig .tc .vmem S1x1 .f32) (harg4 : arg4.IsWhole)
    (hc0 : ¬cond0_0 i) (hc1 : cond0_1 i) (hc2 : ¬cond0_2 i)
    (q : Vec F S1024x16 .f32) (k : Vec F S10000x16 .f32) (xo : Vec F S1024x17 .bf16) (s : Vec F S1x1 .f32) (K : PUnit → sProp 𝕄) :
    iprop(owns (c : Thread nD τ) arg1 fullShare q ∗ owns (c : Thread nD τ) arg2 fullShare k ∗ owns (c : Thread nD τ) arg3 fullShare xo
        ∗ owns (c : Thread nD τ) arg4 fullShare s
        ∗ (iprop(owns (c : Thread nD τ) arg1 fullShare q ∗ owns (c : Thread nD τ) arg2 fullShare k ∗ owns (c : Thread nD τ) arg3 fullShare xo
            ∗ owns (c : Thread nD τ) arg4 fullShare (k0_pay3 k s)) -∗ K ⟨⟩))
      ⊢ wp frame (wpE (defs₀ (F := F)) Variants.none c none) E (cc0__qext_body i arg1 harg1 arg2 harg2 arg3 harg3 arg4 harg4) K := by
  simp only [cc0__qext_body_eq_skeleton]; unfold cc0__qext_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  rw [View.read_writes_eq_canon _ _ _ (cover0_s _)]
  rw [View.canon_unit_zero hz2]
  simp only [View.readAt_eq_ld, harg2.read_unread, harg4.read_unread, View.ld_unit_zero (S := S10000x16) hz2, View.ld_unit_zero (S := S1x1) hz2]

/-- THE LAST POINT (coordinate 9): the scratch cell holding `s` and the output buffer anything, the body updates the cell
    as at a middle point, reads the updated cell back (a load through the rectangle of the one store before it: the
    stored payload), and stores the two column pieces of the output block, which cover it; so the buffer reads back the
    pieces' canonical contents, over `q` and the updated cell. -/
theorem run0_C (c : Dev nD) (E : Set ℕ) (i : grid0.Coords)
    (arg1 : Memref sig .tc .vmem S1024x16 .f32) (harg1 : arg1.IsWhole) (arg2 : Memref sig .tc .vmem S10000x16 .f32) (harg2 : arg2.IsWhole)
    (arg3 : Memref sig .tc .vmem S1024x17 .bf16) (harg3 : arg3.IsWhole) (arg4 : Memref sig .tc .vmem S1x1 .f32) (harg4 : arg4.IsWhole)
    (hc0 : ¬cond0_0 i) (hc1 : cond0_1 i) (hc2 : cond0_2 i)
    (q : Vec F S1024x16 .f32) (k : Vec F S10000x16 .f32) (s : Vec F S1x1 .f32) (K : PUnit → sProp 𝕄) :
    iprop(owns (c : Thread nD τ) arg1 fullShare q ∗ owns (c : Thread nD τ) arg2 fullShare k ∗ (∃ d, owns (c : Thread nD τ) arg3 fullShare d)
        ∗ owns (c : Thread nD τ) arg4 fullShare s
        ∗ (iprop(owns (c : Thread nD τ) arg1 fullShare q ∗ owns (c : Thread nD τ) arg2 fullShare k
            ∗ owns (c : Thread nD τ) arg3 fullShare (qext0 q (k0_pay3 k s))
            ∗ owns (c : Thread nD τ) arg4 fullShare (k0_pay3 k s)) -∗ K ⟨⟩))
      ⊢ wp frame (wpE (defs₀ (F := F)) Variants.none c none) E (cc0__qext_body i arg1 harg1 arg2 harg2 arg3 harg3 arg4 harg4) K := by
  simp only [cc0__qext_body_eq_skeleton]; unfold cc0__qext_body_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (cover0_2 _ _)]
    sl_unfold_words
    unfold qext0
    simp only [View.readAt_eq_ld, harg1.read_unread, harg2.read_unread, harg4.read_unread, View.ld_unit_zero (S := S1024x16) hz2,
      View.ld_unit_zero (S := S10000x16) hz2, View.ld_unit_zero (S := S1x1) hz2, View.readCov_unit_zero (S := S1x1) _ hz2]
  iexists _; isplitr
  swap; · iexact H4
  ipureintro
  sl_unfold_words
  rw [View.read_writes_eq_canon _ _ _ (cover0_s _)]
  rw [View.canon_unit_zero hz2]
  simp only [View.readAt_eq_ld, harg2.read_unread, harg4.read_unread, View.ld_unit_zero (S := S10000x16) hz2, View.ld_unit_zero (S := S1x1) hz2]

/-! ## The invariant and the carried scratch, point by point -/

/-- Before the first point the invariant is the class's. -/

theorem Phi0_zero (c : Dev nD) (n : ℕ) (h : n ≤ cfg0.N) (hz : n = 0) : Phi0 V c n h = Pipeline.ΦA spec0 c := by
  subst hz; rfl

/-- After point `n`: the scratch cell at what that point left. -/
theorem Phi0_succ (c : Dev nD) (n : ℕ) (hn : n < cfg0.N) :
    Phi0 V c (n + 1) hn = iprop(owns (c : Thread nD τ) scM0 fullShare (km0 V c n hn) ∗ rest0 (F := F) c ∗ (∃ r, prngReg c r)) := rfl

/-- Before a point that is not the first: the scratch cell at what the point before left. -/
theorem Phi0_pos (c : Dev nD) (n : ℕ) (h : n ≤ cfg0.N) (hz : n ≠ 0) :
    Phi0 V c n h = iprop(owns (c : Thread nD τ) scM0 fullShare (km0 V c (n - 1) (by omega)) ∗ rest0 (F := F) c ∗ (∃ r, prngReg c r)) := by
  cases n with
  | zero => exact absurd rfl hz
  | succ n => rfl

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- The carried maximum after the first point is its block's. -/
theorem km0_zero (c : Dev nD) (t : Fin cfg0.N) (hz : t.val = 0) : km0 V c t.val t.isLt = k0_pay2 (kblk0 V c t) := by
  obtain ⟨n, hn⟩ := t
  cases n with
  | zero => rfl
  | succ n => exact absurd hz (Nat.succ_ne_zero n)

/-- After a later point it is the larger of the point's own and what the point before left. -/
theorem km0_pos (c : Dev nD) (t : Fin cfg0.N) (hz : t.val ≠ 0) :
    km0 V c t.val t.isLt = k0_pay3 (kblk0 V c t) (km0 V c (t.val - 1) (Nat.lt_of_le_of_lt (Nat.sub_le _ _) t.isLt)) := by
  obtain ⟨n, hn⟩ := t
  cases n with
  | zero => exact absurd rfl hz
  | succ n => rfl

/-! ## The body obligation, at a generic point -/

/-- What the body is called with at point `t`: the invariant, the core's dues and each window's current buffer at what
    it then holds, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point. The input buffers hold their blocks. At the first point the invariant is the class's: the
    scratch cell at anything, and the cell is left at the first block's maximum. At a later point the cell holds what the
    point before left and is left at the larger of that and this block's maximum. Off the last point the output window is
    idle and not written back, so its buffer is handed back as found; at the last point it is live and is left at the
    output block over the query block and the cell's final contents. The other call's scoped buffers, the generator
    register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 10 := lt_of_lt_of_eq t.isLt (show cfg0.N = 10 from N_0)
  by_cases hz : t.val = 0
  · -- the first point: the scratch at anything, the output window idle
    have h9 : ¬t.val = 9 := by omega
    have hc0 : cond0_0 (grid0.coords t) := (hcond0_0 t).mpr hz
    have hc1 : ¬cond0_1 (grid0.coords t) := fun h => (hcond0_1 t).mp h hz
    have hc2 : ¬cond0_2 (grid0.coords t) := fun h => h9 ((hcond0_2 t).mp h)
    rw [Dat.leavesExact_idle (dat0 V c) 2 t (idleAt0_2 t hc2) (noFlush0_2 t hc2)]
    rw [Phi0_castSucc V c t, Phi0_zero V c _ _ hz, PhiA0_eq, km0_zero V c t hz]
    iintro ⟨⟨⟨HS, HR⟩, Hg⟩, Ho, ⟨%d0, H0⟩, ⟨%d1, H1⟩, ⟨%d2, H2⟩⟩
    iapply (run0_A c Set.univ (grid0.coords t) _ _ _ _ _ _ _ _ hc0 hc1 hc2 (qblk0 V c t) (kblk0 V c t) ((dat0 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · by_cases h9 : t.val = 9
    · -- the last point: the scratch updated, the output block written
      have hc0 : ¬cond0_0 (grid0.coords t) := fun h => hz ((hcond0_0 t).mp h)
      have hc1 : cond0_1 (grid0.coords t) := (hcond0_1 t).mpr hz
      have hc2 : cond0_2 (grid0.coords t) := (hcond0_2 t).mpr h9
      rw [show (dat0 V c).leavesExact 2 t = owns (c : Thread nD τ) (st0_2 t) fullShare ((dat0 V c).after 2 t) from by
        unfold Dat.leavesExact; rw [liveAt0_2 t hc2], after0_2]
      rw [Phi0_castSucc V c t, Phi0_pos V c _ _ hz, km0_pos V c t hz]
      iintro ⟨⟨HS, HR, Hg⟩, Ho, ⟨%d0, H0⟩, ⟨%d1, H1⟩, ⟨%d2, H2⟩⟩
      iapply (run0_C c Set.univ (grid0.coords t) _ _ _ _ _ _ _ _ hc0 hc1 hc2 (qblk0 V c t) (kblk0 V c t) (km0 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · -- a middle point: the scratch updated, the output window idle
      have hc0 : ¬cond0_0 (grid0.coords t) := fun h => hz ((hcond0_0 t).mp h)
      have hc1 : cond0_1 (grid0.coords t) := (hcond0_1 t).mpr hz
      have hc2 : ¬cond0_2 (grid0.coords t) := fun h => h9 ((hcond0_2 t).mp h)
      rw [Dat.leavesExact_idle (dat0 V c) 2 t (idleAt0_2 t hc2) (noFlush0_2 t hc2)]
      rw [Phi0_castSucc V c t, Phi0_pos V c _ _ hz, km0_pos V c t hz]
      iintro ⟨⟨HS, HR, Hg⟩, Ho, ⟨%d0, H0⟩, ⟨%d1, H1⟩, ⟨%d2, H2⟩⟩
      iapply (run0_B c Set.univ (grid0.coords t) _ _ _ _ _ _ _ _ hc0 hc1 hc2 (qblk0 V c t) (kblk0 V c t) ((dat0 V c).before 2 t d2) (km0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The proof data's arrays are the region-entry contents. -/
theorem A_eq0 (c : Dev nD) (w : Fin cfg0.W) : (dat0 V c).A w = V c (Pipeline.arrRef spec0 w) := by
  dsimp only [dat0]

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]

/-- After the last point the invariant gives the class's back: the scratch's contents are forgotten. -/
theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 10 := N_0; omega), PhiA0_eq]
  iintro ⟨HS, HR, Hg⟩
  isplitl [HS HR]
  · isplitl [HS]; · iexists _; iexact HS
    iexact HR
  iexact Hg

end Cert.KernelIdeal.Hand

end
-- ==== Proof.KI.R1Defs.lean ====
/-
  The second region (the streaming call, fifty grid points over blocks of 2000 key and value rows), as data.
  A 1024 x 17 scratch carries the accumulator: the first point resets it to zero and adds its block's product
  exp(qext . [k | 1]^T) . [v | 1]; every later point adds its own block's product to what it finds. The last point
  also writes the output block: columns 0..15 of the accumulator divided by column 16; at the other points the
  output window is idle. Everything is stated at the contents `V` the region is entered from.
-/
import proofs.«167948_g19181323944180_cont_8to1_1754_15_alg».proof.Proof.Gen.KernelIdeal.Launch
import proofs.«167948_g19181323944180_cont_8to1_1754_15_alg».proof.Proof.Gen.KernelIdeal.Skeleton
import proofs.«167948_g19181323944180_cont_8to1_1754_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The extended query block (the whole 1024 x 17 array at every point). -/
abbrev qeblk1 (c : Dev nD) (t : Fin cfg1.N) : Vec F S1024x17 .bf16 := iblk1 V c 0 t
/-- The block of 2000 key rows at point `t`. -/
abbrev kblk1 (c : Dev nD) (t : Fin cfg1.N) : Vec F S2000x16 .f32 := iblk1 V c 1 t
/-- The block of 2000 value rows at point `t`. -/
abbrev vblk1 (c : Dev nD) (t : Fin cfg1.N) : Vec F S2000x16 .f32 := iblk1 V c 2 t

/-- The accumulator after point `n`: the sum over the blocks 0..n of each block's product, from zero. -/
def acc1 (c : Dev nD) : (n : ℕ) → n < cfg1.N → Vec F S1024x17 .f32
  | 0, h => k1_pay2 (kblk1 V c ⟨0, h⟩) (qeblk1 V c ⟨0, h⟩) (vblk1 V c ⟨0, h⟩) (k1_pay1 (F := F))
  | n + 1, h => k1_pay2 (kblk1 V c ⟨n + 1, h⟩) (qeblk1 V c ⟨n + 1, h⟩) (vblk1 V c ⟨n + 1, h⟩) (acc1 c n (Nat.lt_of_succ_lt h))

/-- The two column rectangles of the accumulator: columns 0..15 (the numerators) and column 16 (the denominators). -/
abbrev ra1 : Rect S1024x17 := Rect.unit (s := S1024x17) ![0, 0] S1024x16.size inb_S1024x17_S1024x16_0_0
abbrev rb1 : Rect S1024x17 := Rect.unit (s := S1024x17) ![0, 16] S1024x1.size inb_S1024x17_S1024x1_0_16

/-- The output block from an accumulator: numerators over denominators, row by row. -/
def out1 (acc : Vec F S1024x17 .f32) : Vec F S1024x16 .f32 :=
  k1_pay3 (View.ld acc ra1) (View.ld acc rb1)

/-- The scratch memref. -/
abbrev scM1 : Memref sig .tc .vmem S1024x17 .f32 := Memref.whole cc1_scratch0

/-- The scoped buffers of the core that belong to the other call, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f))

/-- The region invariant before position `n`: before the first point the scoped rest and the generator register at
    anything; afterwards the accumulator at what the point before left, the other scoped buffers and the register at anything. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (acc1 V c t.val t.isLt)
  Φ t := Phi1 V c t.val (Nat.le_of_lt_succ t.isLt)
  q _ := fullShare
  owed _ := 0

end Cert.KernelIdeal.Hand

end
-- ==== Proof.KI.R1.lean ====
/-
  Region 1: the body's run in each of its three control cases, and the body obligation of the region's proof data.
-/
import proofs.«167948_g19181323944180_cont_8to1_1754_15_alg».proof.Proof.Gen.KernelIdeal.Launch
import proofs.«167948_g19181323944180_cont_8to1_1754_15_alg».proof.Proof.Gen.KernelIdeal.Skeleton
import proofs.«167948_g19181323944180_cont_8to1_1754_15_alg».proof.Proof.Gen.KernelIdeal.Points
import proofs.«167948_g19181323944180_cont_8to1_1754_15_alg».proof.Proof.KI.R1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, in closed form over the grid -/

/-- The first conditional's condition (the point is the first), as the body computes it from the coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The last conditional's condition (the point is the last). -/
abbrev cond1_1 (i : grid1.Coords) : Prop := k1_cond2 i = 1#1
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, at every point but the last. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging memrefs at a point -/

abbrev ms1_0 (t : Fin cfg1.N) : Memref sig .tc .vmem S1024x17 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x16 .f32 := win1_3.stage (cfg1.slots t 3)
abbrev hs1_3 (t : Fin cfg1.N) : (ms1_3 t).IsWhole := hstage1_3 ((cfg1.slots t 3).cast nbuf1_3)

/-- The zero offsets of a rank-2 rectangle, however spelt. -/
theorem zeroOff1 : (![0, 0] : Fin 2 → Nat) = fun _ => 0 := funext fun a => by fin_cases a <;> rfl

/-- A list of pieces whose last write is through the whole-shape rectangle at zero offsets covers the shape. -/
theorem coverHead1 {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-- The proof data's arrays are the region-entry contents. -/
theorem A_eq1 (c : Dev nD) (w : Fin cfg1.W) : (dat1 V c).A w = V c (Pipeline.arrRef spec1 w) := by
  dsimp only [dat1]

/-! ## The body in its three control cases

The grid coordinate decides two conditionals: the first is taken at point 0 only, the last at point 49 only. In every
case the body loads the key block, the extended query and the value block, loads the scratch and stores the scratch
plus the block's product `exp(qext . [k | 1]^T) . [v | 1]` back. Each case is stated on any whole memrefs, with
the contents every buffer ends with written out. -/

set_option maxHeartbeats 1000000 in
/-- The first point (the first conditional taken, the last not). The scratch, held at anything, is reset to zero and
    then gets the block's product added to that zero; the inputs' buffers and the output buffer come back as they were. -/
theorem run1_A (c : Dev nD) (i : grid1.Coords)
    (arg1 : Memref sig .tc .vmem S1024x17 .bf16) (harg1 : arg1.IsWhole) (arg2 : Memref sig .tc .vmem S2000x16 .f32) (harg2 : arg2.IsWhole)
    (arg3 : Memref sig .tc .vmem S2000x16 .f32) (harg3 : arg3.IsWhole) (arg4 : Memref sig .tc .vmem S1024x16 .f32) (harg4 : arg4.IsWhole)
    (arg5 : Memref sig .tc .vmem S1024x17 .f32) (harg5 : arg5.IsWhole) (hc0 : cond1_0 i) (hc1 : ¬cond1_1 i)
    (x0 : Vec F S1024x17 .bf16) (x1 : Vec F S2000x16 .f32) (x2 : Vec F S2000x16 .f32) (xi3 : Vec F S1024x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x1 x0 x2 (k1_pay1 (F := F)))) -∗ K ⟨⟩))
      ⊢ wp frame (wpE (defs₀ (F := F)) Variants.none c none) E (cc1__main_body i arg1 harg1 arg2 harg2 arg3 harg3 arg4 harg4 arg5 harg5) K := by
  simp only [cc1__main_body_eq_skeleton]; unfold cc1__main_body_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS
  ipureintro
  sl_unfold_words
  rw [View.read_writes_eq_canon _ _ _ (coverHead1 (S := S1024x17) zeroOff1 _ _ _)]
  rw [View.canon_cons_unit_zero zeroOff1]
  simp only [View.readAt_eq_ld, harg1.read_unread, harg2.read_unread, harg3.read_unread, View.ld_unit_zero (S := S1024x17) zeroOff1, View.ld_unit_zero (S := S2000x16) zeroOff1, View.readCov_unit_zero (S := S1024x17) _ zeroOff1]

set_option maxHeartbeats 1000000 in
/-- A middle point (neither conditional taken). The scratch, at what the point before left, gets the block's product
    added; the inputs' buffers and the output buffer come back as they were. -/
theorem run1_B (c : Dev nD) (i : grid1.Coords)
    (arg1 : Memref sig .tc .vmem S1024x17 .bf16) (harg1 : arg1.IsWhole) (arg2 : Memref sig .tc .vmem S2000x16 .f32) (harg2 : arg2.IsWhole)
    (arg3 : Memref sig .tc .vmem S2000x16 .f32) (harg3 : arg3.IsWhole) (arg4 : Memref sig .tc .vmem S1024x16 .f32) (harg4 : arg4.IsWhole)
    (arg5 : Memref sig .tc .vmem S1024x17 .f32) (harg5 : arg5.IsWhole) (hc0 : ¬cond1_0 i) (hc1 : ¬cond1_1 i)
    (x0 : Vec F S1024x17 .bf16) (x1 : Vec F S2000x16 .f32) (x2 : Vec F S2000x16 .f32) (xi3 : Vec F S1024x16 .f32) (xs : Vec F S1024x17 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x1 x0 x2 xs)) -∗ K ⟨⟩))
      ⊢ wp frame (wpE (defs₀ (F := F)) Variants.none c none) E (cc1__main_body i arg1 harg1 arg2 harg2 arg3 harg3 arg4 harg4 arg5 harg5) K := by
  simp only [cc1__main_body_eq_skeleton]; unfold cc1__main_body_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS
  ipureintro
  rw [View.read_writes_eq_canon _ _ _ (coverHead1 (S := S1024x17) zeroOff1 _ _ _)]
  rw [View.canon_unit_zero zeroOff1]
  simp only [View.readAt_eq_ld, harg1.read_unread, harg2.read_unread, harg3.read_unread, harg5.read_unread, View.ld_unit_zero (S := S1024x17) zeroOff1, View.ld_unit_zero (S := S2000x16) zeroOff1]

set_option maxHeartbeats 1000000 in
/-- The last point (the first conditional not taken, the last taken). The scratch gets the block's product added as at
    a middle point; then the output buffer, held at anything, gets the new accumulator's columns 0..15 divided by its
    column 16. -/
theorem run1_C (c : Dev nD) (i : grid1.Coords)
    (arg1 : Memref sig .tc .vmem S1024x17 .bf16) (harg1 : arg1.IsWhole) (arg2 : Memref sig .tc .vmem S2000x16 .f32) (harg2 : arg2.IsWhole)
    (arg3 : Memref sig .tc .vmem S2000x16 .f32) (harg3 : arg3.IsWhole) (arg4 : Memref sig .tc .vmem S1024x16 .f32) (harg4 : arg4.IsWhole)
    (arg5 : Memref sig .tc .vmem S1024x17 .f32) (harg5 : arg5.IsWhole) (hc0 : ¬cond1_0 i) (hc1 : cond1_1 i)
    (x0 : Vec F S1024x17 .bf16) (x1 : Vec F S2000x16 .f32) (x2 : Vec F S2000x16 .f32) (xs : Vec F S1024x17 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (out1 (k1_pay2 x1 x0 x2 xs)) ∗ owns (c : Thread nD τ) arg5 fullShare (k1_pay2 x1 x0 x2 xs)) -∗ K ⟨⟩))
      ⊢ wp frame (wpE (defs₀ (F := F)) Variants.none c none) E (cc1__main_body i arg1 harg1 arg2 harg2 arg3 harg3 arg4 harg4 arg5 harg5) K := by
  simp only [cc1__main_body_eq_skeleton]; unfold cc1__main_body_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2
  obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [View.read_writes_eq_canon _ _ _ (coverHead1 (S := S1024x16) zeroOff1 _ _ _)]
    rw [View.canon_unit_zero zeroOff1]
    unfold out1
    simp only [View.readCov_eq_canon', View.canon_unit_zero (S := S1024x17) zeroOff1, View.readAt_eq_ld, harg1.read_unread, harg2.read_unread, harg3.read_unread, harg5.read_unread, View.ld_unit_zero (S := S1024x17) zeroOff1, View.ld_unit_zero (S := S2000x16) zeroOff1]
  iexists _; isplitr
  swap; · iexact HS
  ipureintro
  sl_unfold_words
  rw [View.read_writes_eq_canon _ _ _ (coverHead1 (S := S1024x17) zeroOff1 _ _ _)]
  rw [View.canon_unit_zero zeroOff1]
  simp only [View.readAt_eq_ld, harg1.read_unread, harg2.read_unread, harg3.read_unread, harg5.read_unread, View.ld_unit_zero (S := S1024x17) zeroOff1, View.ld_unit_zero (S := S2000x16) zeroOff1]

/-! ## The invariant, unfolded -/

/-- The class invariant with the scratch as a memref owned at some contents: the five scoped buffers of the other
    call come first in the chain, the scratch last. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

theorem Phi1_zero (c : Dev nD) (n : ℕ) (h : n ≤ cfg1.N) (hz : n = 0) : Phi1 V c n h = Pipeline.ΦA spec1 c := by
  subst hz; rfl

/-- After point `n`: the scratch at what that point left. -/
theorem Phi1_succ (c : Dev nD) (n : ℕ) (hn : n < cfg1.N) :
    Phi1 V c (n + 1) hn = iprop(owns (c : Thread nD τ) scM1 fullShare (acc1 V c n hn) ∗ rest1 (F := F) c ∗ (∃ r, prngReg c r)) := rfl

/-- Before a point that is not the first: the scratch at what the point before left. -/
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-! ## The accumulator at a point, by the point's case -/

/-- At the first point the accumulator is the block's product added to zero. -/
theorem acc1_first (c : Dev nD) (t : Fin cfg1.N) (hz : t.val = 0) :
    acc1 V c t.val t.isLt = k1_pay2 (kblk1 V c t) (qeblk1 V c t) (vblk1 V c t) (k1_pay1 (F := F)) := by
  obtain ⟨n, hn⟩ := t
  cases n with
  | zero => rfl
  | succ n => exact absurd hz (Nat.succ_ne_zero n)

/-- At a later point it is the block's product added to what the point before left. -/
theorem acc1_later (c : Dev nD) (t : Fin cfg1.N) (hz : t.val ≠ 0) :
    acc1 V c t.val t.isLt = k1_pay2 (kblk1 V c t) (qeblk1 V c t) (vblk1 V c t) (acc1 V c (t.val - 1) (Nat.lt_of_le_of_lt (Nat.sub_le _ _) t.isLt)) := by
  obtain ⟨n, hn⟩ := t
  cases n with
  | zero => exact absurd rfl hz
  | succ n => rfl

/-! ## What the windows hold before and after the body -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (acc1 V c t.val t.isLt) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`: the invariant, what the core owes, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's position says which of the three
    control cases runs; the invariant hands the scratch over at what the point before left (at anything at the first
    point) and takes it back at this point's accumulator; the output buffer is handed back untouched everywhere
    but at the last point, where it gets the quotient block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val = 0
  · have h1 : ¬t.val = 49 := by omega
    rw [Dat.leavesExact_idle (dat1 V c) 3 t (idleAt1_3 t (fun h => h1 ((hcond1_1 t).mp h))) (noFlush1_3 t (fun h => h1 ((hcond1_1 t).mp h)))]
    rw [acc1_first V c t h0]
    rw [Phi1_castSucc V c t, Phi1_zero V c _ _ h0, PhiA1_eq]
    iintro ⟨⟨⟨R0, R1, R2, R3, R4, HS⟩, Hg⟩, Ho, ⟨%d0, H0⟩, ⟨%d1, H1⟩, ⟨%d2, H2⟩, ⟨%d3, H3⟩⟩
    iapply (run1_A c (grid1.coords t) _ _ _ _ _ _ _ _ scM1 (Memref.isWhole_whole _) ((hcond1_0 t).mpr h0) (fun h => h1 ((hcond1_1 t).mp h))
      (qeblk1 V c t) (kblk1 V c t) (vblk1 V c t) _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS R0 R1 R2 R3 R4 Hg]
    · isplitl [HS]; · iexact HS
      isplitl [R0 R1 R2 R3 R4]
      · unfold rest1
        isplitl [R0]; · iexact R0
        isplitl [R1]; · iexact R1
        isplitl [R2]; · iexact R2
        isplitl [R3]; · iexact R3
        iexact R4
      iexact Hg
    isplitl [Ho]; · iexact Ho
    isplitl [H0]; · iexact H0
    isplitl [H1]; · iexact H1
    isplitl [H2]; · iexact H2
    iexists _; iexact H3
  · by_cases h1 : t.val = 49
    · rw [show (dat1 V c).leavesExact 3 t = owns (c : Thread nD τ) (ms1_3 t) fullShare ((dat1 V c).after 3 t) from by
        unfold Dat.leavesExact; rw [liveAt1_3 t ((hcond1_1 t).mpr h1)], after1_3]
      rw [acc1_later V c t h0]
      rw [Phi1_castSucc V c t, Phi1_pos V c _ _ h0]
      iintro ⟨⟨HS, HR, Hg⟩, Ho, ⟨%d0, H0⟩, ⟨%d1, H1⟩, ⟨%d2, H2⟩, ⟨%d3, H3⟩⟩
      iapply (run1_C c (grid1.coords t) _ _ _ _ _ _ _ _ scM1 (Memref.isWhole_whole _) (fun h => h0 ((hcond1_0 t).mp h)) ((hcond1_1 t).mpr h1)
        (qeblk1 V c t) (kblk1 V c t) (vblk1 V c t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [acc1_later V c t h0]
      rw [Phi1_castSucc V c t, Phi1_pos V c _ _ h0]
      iintro ⟨⟨HS, HR, Hg⟩, Ho, ⟨%d0, H0⟩, ⟨%d1, H1⟩, ⟨%d2, H2⟩, ⟨%d3, H3⟩⟩
      iapply (run1_B c (grid1.coords t) _ _ _ _ _ _ _ _ scM1 (Memref.isWhole_whole _) (fun h => h0 ((hcond1_0 t).mp h)) (fun h => h1 ((hcond1_1 t).mp h))
        (qeblk1 V c t) (kblk1 V c t) (vblk1 V c t) _ (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]

/-- After the last point the invariant gives the class's back: the scratch's contents are forgotten. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 50 := N_1; omega), PhiA1_eq]
  unfold rest1
  iintro ⟨HS, ⟨R0, R1, R2, R3, R4⟩, Hg⟩
  isplitl [HS R0 R1 R2 R3 R4]
  · isplitl [R0]; · iexact R0
    isplitl [R1]; · iexact R1
    isplitl [R2]; · iexact R2
    isplitl [R3]; · iexact R3
    isplitl [R4]; · iexact R4
    iexists _; iexact HS
  iexact Hg

end Cert.KernelIdeal.Hand

end
-- ==== Proof.KI.Main.lean ====
/-
  The whole program: its two regions in order, over the contents of the unscoped buffers at the three boundaries
  (at launch; after the first region, whose output array then holds the extended query; after the second, whose
  output array holds the result), and the run: every weakly fair execution terminates with every unscoped buffer
  at the last boundary's contents.
-/
import proofs.«167948_g19181323944180_cont_8to1_1754_15_alg».proof.Proof.Gen.KernelIdeal.Launch
import proofs.«167948_g19181323944180_cont_8to1_1754_15_alg».proof.Proof.Gen.KernelIdeal.Skeleton
import proofs.«167948_g19181323944180_cont_8to1_1754_15_alg».proof.Proof.Gen.KernelIdeal.Points
import proofs.«167948_g19181323944180_cont_8to1_1754_15_alg».proof.Proof.KI.R0
import proofs.«167948_g19181323944180_cont_8to1_1754_15_alg».proof.Proof.KI.R1
import proofs.«167948_g19181323944180_cont_8to1_1754_15_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the second region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W0`, left at `W1`. Its arrays are
    split out of the unscoped buffers and put back at the exit contents; the generator register goes into the
    region invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    iintro ⟨Hp, -, Hr⟩
    iapply (hin0 (V0 m) c)
    unfold Pipeline.ΦA
    isplitl [Hr]; · iexact Hr
    iexact Hp
  hout c := by
    rw [Pipeline.ownSems0_none, show (pdats m 0 c).Φ (Fin.last _) = (dat0 (V0 m) c).Φ (Fin.last cfg0.N) from rfl]
    have hgive := hout0 (V0 m) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are
    split out of the unscoped buffers and put back at the exit contents; the generator register goes into the
    region invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    iintro ⟨Hp, -, Hr⟩
    iapply (hin1 (V1 m) c)
    unfold Pipeline.ΦA
    isplitl [Hr]; · iexact Hr
    iexact Hp
  hout c := by
    rw [Pipeline.ownSems0_none, show (pdats m 1 c).Φ (Fin.last _) = (dat1 (V1 m) c).Φ (Fin.last cfg1.N) from rfl]
    have hgive := hout1 (V1 m) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## The arguments end as launched, and where the result is -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W1_main_arg2 (c : Dev nD) : W1 m c (Proc.devRef .tc main_arg2) = m ((c : Thread nD τ).loc main_arg2) :=
  W1_of_ne m c main_arg2 (by decide)
theorem W2_main_arg1 (c : Dev nD) : W2 m c (Proc.devRef .tc main_arg1) = m ((c : Thread nD τ).loc main_arg1) :=
  ((W2_arr m c 1).trans (((dat1 (V1 m) c).arrAt_in 1 rfl _).trans (A_eq1 (V1 m) c 1))).trans (W1_main_arg1 m c)
theorem W2_main_arg2 (c : Dev nD) : W2 m c (Proc.devRef .tc main_arg2) = m ((c : Thread nD τ).loc main_arg2) :=
  ((W2_arr m c 2).trans (((dat1 (V1 m) c).arrAt_in 2 rfl _).trans (A_eq1 (V1 m) c 2))).trans (W1_main_arg2 m c)
/-- The result array after the run is the second region's output array after its last point. -/
theorem W2_main_v0 (c : Dev nD) : W2 m c (Proc.devRef .tc main_v0) = (dat1 (V1 m) c).arrAt 3 cfg1.N := W2_arr m c 3
/-- The extended query the second region reads is the first region's output array after its last point. -/
theorem V1_main_call0_v0 (c : Dev nD) : V1 m c main_call0_v0 = (dat0 (V0 m) c).arrAt 2 cfg0.N := W1_arr m c 2

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

end Cert.KernelIdeal.Hand

end
-- ==== Proof.Spec.lean ====
/-
  The mathematics both programs compute, over the reals: the softmax readout
      readout q K V b d = (Σ_j exp (q_b · K_j) V_jd) / (Σ_j exp (q_b · K_j)),
  and its invariance under a shift of the exponents that does not depend on j: the quotient of the two
  shifted sums (what the streaming kernel accumulates) and the sum of the shifted, normalised weights
  (what the reference's softmax computes) are both the readout, whatever the shift.
-/
import Idealize.ShloMosaic.PureOps.Ideal

noncomputable section

namespace Cert.Spec

open scoped BigOperators

/-- The dot product of query row `b` and key row `j`. -/
def sim (q : Fin 1024 → Fin 16 → ℝ) (K : Fin 100000 → Fin 16 → ℝ) (b : Fin 1024) (j : Fin 100000) : ℝ :=
  ∑ k : Fin 16, q b k * K j k

/-- The softmax readout of row `b`, column `d`. -/
def readout (q : Fin 1024 → Fin 16 → ℝ) (K V : Fin 100000 → Fin 16 → ℝ) (b : Fin 1024) (d : Fin 16) : ℝ :=
  (∑ j : Fin 100000, Real.exp (sim q K b j) * V j d) / (∑ j : Fin 100000, Real.exp (sim q K b j))

/-- The quotient of the two sums with every exponent shifted by `u` is the readout. -/
theorem quot_shift (q : Fin 1024 → Fin 16 → ℝ) (K V : Fin 100000 → Fin 16 → ℝ) (u : ℝ) (b : Fin 1024) (d : Fin 16) :
    (∑ j : Fin 100000, Real.exp (sim q K b j - u) * V j d) / (∑ j : Fin 100000, Real.exp (sim q K b j - u))
      = readout q K V b d := by
  -- exp (a - u) = exp a * exp (-u); the common factor exp (-u) is not zero and cancels from the quotient
  have hu : Real.exp (-u) ≠ 0 := (Real.exp_pos _).ne'
  have hexp : ∀ j : Fin 100000, Real.exp (sim q K b j - u) = Real.exp (sim q K b j) * Real.exp (-u) := fun j => by
    rw [sub_eq_add_neg, Real.exp_add]
  have hnum : (∑ j : Fin 100000, Real.exp (sim q K b j - u) * V j d)
      = (∑ j : Fin 100000, Real.exp (sim q K b j) * V j d) * Real.exp (-u) := by
    rw [Finset.sum_mul]
    exact Finset.sum_congr rfl fun j _ => by rw [hexp j, mul_right_comm]
  have hden : (∑ j : Fin 100000, Real.exp (sim q K b j - u))
      = (∑ j : Fin 100000, Real.exp (sim q K b j)) * Real.exp (-u) := by
    rw [Finset.sum_mul]
    exact Finset.sum_congr rfl fun j _ => hexp j
  rw [hnum, hden, mul_div_mul_right _ _ hu]
  rfl

/-- The shifted sum of exponentials is positive, so it is not zero. -/
theorem sum_exp_ne_zero (q : Fin 1024 → Fin 16 → ℝ) (K : Fin 100000 → Fin 16 → ℝ) (u : ℝ) (b : Fin 1024) :
    (∑ j : Fin 100000, Real.exp (sim q K b j - u)) ≠ 0 := by
  -- a sum of positive terms over a nonempty index set is positive
  have hne : (Finset.univ : Finset (Fin 100000)).Nonempty := ⟨⟨0, by norm_num⟩, Finset.mem_univ _⟩
  exact (Finset.sum_pos (fun j _ => Real.exp_pos _) hne).ne'

/-- The sum of the normalised shifted weights against a column of `V` is the readout. -/
theorem softmax_shift (q : Fin 1024 → Fin 16 → ℝ) (K V : Fin 100000 → Fin 16 → ℝ) (u : ℝ) (b : Fin 1024) (d : Fin 16) :
    (∑ j : Fin 100000, (Real.exp (sim q K b j - u) / ∑ j' : Fin 100000, Real.exp (sim q K b j' - u)) * V j d)
      = readout q K V b d := by
  -- the normalising sum does not depend on j: pull the division out of the sum, then it is the shifted quotient
  rw [← quot_shift q K V u b d, Finset.sum_div]
  exact Finset.sum_congr rfl fun j _ => div_mul_eq_mul_div _ _ _

end Cert.Spec

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.ArrOut.lean ====
/-
  The write-back of the first region's output window. The window's block is the whole 1024 x 17 array and the block is
  written back at the grid's last point only; so after the region the array holds what the last point left in the
  block: the extended query built from the whole query array and from the scratch cell after the last point.
-/
import proofs.«167948_g19181323944180_cont_8to1_1754_15_alg».proof.Proof.Gen.KernelIdeal.Launch
import proofs.«167948_g19181323944180_cont_8to1_1754_15_alg».proof.Proof.Gen.KernelIdeal.Skeleton
import proofs.«167948_g19181323944180_cont_8to1_1754_15_alg».proof.Proof.Gen.KernelIdeal.Points
import proofs.«167948_g19181323944180_cont_8to1_1754_15_alg».proof.Proof.KI.R0Defs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

/-- The query window reads block (0, 0) at every point, so the offsets of its block in the query array are zero. -/
private theorem off_q (t : Fin cfg0.N) : (fun a => win0_0.index t a * main_arg0.ty.shape.size a) = fun _ => 0 :=
  funext fun a => by fin_cases a <;> rfl

/-- The output window's block at the last point is block (0, 0): its offsets in the output array are zero. -/
private theorem off_o : (fun a => win0_2.index t0_9 a * main_call0_v0.ty.shape.size a) = fun _ => 0 :=
  funext fun a => by fin_cases a <;> decide

/-- The query block is the whole query array, at every point: a block of the array's own sizes at zero offsets. -/
private theorem qblk0_whole (V : (c : Dev nD) → (b : Ref sig .tc) → Buf (Elt F) ((c : Thread nD τ).loc b)) (c : Dev nD)
    (t : Fin cfg0.N) : qblk0 V c t = V c main_arg0 :=
  Memref.read_access_unit_zero (Elt F) main_arg0 (off_q t) (fun a => by rw [congrFun (off_q t) a, Nat.zero_add])
    (V c main_arg0)

/-- The only point that writes the output block back is the last one. -/
private theorem last_of_flush (t : Fin cfg0.N) (hf : (cfg0.win 2).flush t = true) : t = t0_9 := by
  have hN : cfg0.N = 10 := N_0
  have h9 := (flush0_2 t).mp hf
  have hlt := t.isLt
  exact Fin.ext (show t.val = 9 by omega)

/-- What a point leaves in the output block: the extended query of the query block and the scratch cell after the point. -/
private theorem after_out (V : (c : Dev nD) → (b : Ref sig .tc) → Buf (Elt F) ((c : Thread nD τ).loc b)) (c : Dev nD)
    (t : Fin cfg0.N) : (dat0 V c).after 2 t = qext0 (qblk0 V c t) (km0 V c t.val t.isLt) := by
  dsimp only [dat0]

/-- At the last point that is the extended query of the whole query array and the last scratch cell. -/
private theorem after_last (V : (c : Dev nD) → (b : Ref sig .tc) → Buf (Elt F) ((c : Thread nD τ).loc b)) (c : Dev nD) :
    (dat0 V c).after 2 t0_9 = qext0 (V c main_arg0) (km0 V c 9 (by decide)) :=
  (after_out V c t0_9).trans (congrArg (fun q => qext0 q (km0 V c 9 (by decide))) (qblk0_whole V c t0_9))

/-- What the one write-back writes is the extended query read through the last point's block (which is all of it). -/
private theorem flushed_last (V : (c : Dev nD) → (b : Ref sig .tc) → Buf (Elt F) ((c : Thread nD τ).loc b)) (c : Dev nD)
    (t : Fin cfg0.N) (hf : (cfg0.win 2).flush t = true) :
    (dat0 V c).flushed 2 t
      = ((cfg0.win 2).blk t).view.read (Elt F) (qext0 (V c main_arg0) (km0 V c 9 (by decide))) := by
  obtain rfl := last_of_flush t hf
  refine (congrArg ((cfg0.win 2).cut (grid0.coords t0_9)) (after_last V c)).trans ?_
  exact (Memref.read_access_unit_zero (Elt F) main_call0_v0 off_o
    (fun a => by rw [congrFun off_o a, Nat.zero_add]) _).symm

/-- The first region's output array after its last point is the last point's output block. -/
theorem arr0_out_w (V : (c : Dev nD) → (b : Ref sig .tc) → Buf (Elt F) ((c : Thread nD τ).loc b)) (c : Dev nD) :
    (dat0 V c).arrAt 2 cfg0.N = qext0 (V c main_arg0) (km0 V c 9 (by decide)) := by
  refine (dat0 V c).arrAt_eq_of_cover 2 _ (flushed_last V c) fun i => ⟨t0_9, (flush0_2 t0_9).mpr rfl, ?_⟩
  -- the last point's block is the rectangle of the array's own sizes at zero offsets: every index is in it
  show i ∈ ((View.whole main_call0_v0).slice (win0_2.rect t0_9)).set
  rw [View.set_slice_whole]
  exact View.mem_set_unit_zero off_o (fun a => by rw [congrFun off_o a, Nat.zero_add]) i

end Cert.KernelIdeal.Hand

end
-- ==== Proof.Value0.lean ====
/-
  What the first region leaves in its output array: the last point's block, written back whole; and, over the
  extended reals with real query and keys, that block holds the query in columns 0..15 and, in column 16, the
  negation of a real shift (the square root of a product of two nonnegative reals).
-/
import proofs.«167948_g19181323944180_cont_8to1_1754_15_alg».proof.Proof.Gen.KernelIdeal.Launch
import proofs.«167948_g19181323944180_cont_8to1_1754_15_alg».proof.Proof.Gen.KernelIdeal.Skeleton
import proofs.«167948_g19181323944180_cont_8to1_1754_15_alg».proof.Proof.Gen.KernelIdeal.Points
import proofs.«167948_g19181323944180_cont_8to1_1754_15_alg».proof.Proof.KI.R0Defs
import proofs.«167948_g19181323944180_cont_8to1_1754_15_alg».proof.Proof.Spec
import proofs.«167948_g19181323944180_cont_8to1_1754_15_alg».proof.Proof.LibERealRows
import proofs.«167948_g19181323944180_cont_8to1_1754_15_alg».proof.Proof.ArrOut
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

/-- The first region's output array after its last point is the last point's output block. -/
theorem arr0_out (V : (c : Dev nD) → (b : Ref sig .tc) → Buf (Elt F) ((c : Thread nD τ).loc b)) (c : Dev nD) :
    (dat0 V c).arrAt 2 cfg0.N = qext0 (V c main_arg0) (km0 V c 9 (by decide)) := by
  exact arr0_out_w V c

/-! ## Rows of reals

A float vector read at exact arithmetic whose every entry is a real: its lane sums of squares are nonnegative reals,
the maximum over a nonempty axis of nonnegative reals, folded from `-∞`, is a nonnegative real, and a change of layout
keeps any property of the entries. -/

/-- A finite sum of squares of reals is a nonnegative real. -/
theorem sumsq_real {n : ℕ} (f : Fin n → EReal) (hf : ∀ k, ∃ r : ℝ, f k = (r : EReal)) :
    ∃ r : ℝ, 0 ≤ r ∧ ∑ k, f k * f k = (r : EReal) := by
  choose g hg using hf
  refine ⟨∑ k, g k * g k, Finset.sum_nonneg fun k _ => mul_self_nonneg _, ?_⟩
  rw [← Cert.ERealRows.coe_sum]
  exact Finset.sum_congr rfl fun k _ => by rw [hg k, EReal.coe_mul]

/-- The maximum of a nonempty row of nonnegative reals, folded from `-∞`, is a nonnegative real. -/
theorem fold_max_nonneg {ι : Type*} [Fintype ι] [Nonempty ι] (f : ι → EReal)
    (hf : ∀ j, ∃ r : ℝ, 0 ≤ r ∧ f j = (r : EReal)) :
    ∃ M : ℝ, 0 ≤ M ∧ (Finset.univ : Finset ι).fold max (⊥ : EReal) f = (M : EReal) := by
  choose g hg0 hg using hf
  obtain ⟨M, hM⟩ := Cert.ERealRows.fold_max_real g
  have e : f = fun j => (g j : EReal) := funext hg
  obtain ⟨j0⟩ := ‹Nonempty ι›
  refine ⟨M, ?_, by rw [e]; exact hM⟩
  have h1 : ((g j0 : ℝ) : EReal) ≤ (M : EReal) := by
    rw [← hM, Finset.le_fold_max]; exact Or.inr ⟨j0, Finset.mem_univ _, le_rfl⟩
  exact (hg0 j0).trans (EReal.coe_le_coe_iff.mp h1)

/-- The coercion of the reals into the extended reals keeps maxima. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A shape cast keeps a property every entry has. -/
theorem shapeCast_all {s t : Shape} {α : Type} (P : α → Prop) (x : s.Idx → α) (h : s.ShapeCasts t) (hx : ∀ i, P (x i))
    (j : t.Idx) : P (shapeCast t x h j) := by
  unfold shapeCast; exact hx _

/-- The sums over one axis of the squares of a real array are nonnegative reals. -/
theorem lanesq_real {s t : Shape} {a : Fin s.rank} (x : FVec Ideal s .f32) (h : s.Reduces [a] t) (hφ : FKind.Formats .f32)
    (hacc : (0x00000000#32 : BitVec 32) = FKind.add.neutral .f32 hφ) (hx : ∀ i, ∃ r : ℝ, x i = (r : EReal)) (j : t.Idx) :
    ∃ r : ℝ, 0 ≤ r ∧ multiReduction .add [a] t (mulf x x) 0x00000000#32 h hφ hacc j = (r : EReal) := by
  obtain ⟨r, hr0, hr⟩ := sumsq_real (fun k : Fin (s.size a) => x (h.lift j k)) (fun k => hx _)
  exact ⟨r, hr0, (Ideal.multiReduction_add_single (mulf x x) _ h hφ hacc j).trans hr⟩

/-- The maxima over one nonempty axis, folded from `-∞`, of an array of nonnegative reals are nonnegative reals. -/
theorem axismax_real {s t : Shape} {a : Fin s.rank} (x : FVec Ideal s .f32) (h : s.Reduces [a] t) (hφ : FKind.Formats .f32)
    (hacc : (0xFF800000#32 : BitVec 32) = FKind.maximumf.neutral .f32 hφ) (hne : 0 < s.size a)
    (hx : ∀ i, ∃ r : ℝ, 0 ≤ r ∧ x i = (r : EReal)) (j : t.Idx) :
    ∃ M : ℝ, 0 ≤ M ∧ multiReduction .maximumf [a] t x 0xFF800000#32 h hφ hacc j = (M : EReal) := by
  haveI : Nonempty (Fin (s.size a)) := ⟨⟨0, hne⟩⟩
  obtain ⟨M, hM0, hM⟩ := fold_max_nonneg (fun k : Fin (s.size a) => x (h.lift j k)) (fun k => hx _)
  refine ⟨M, hM0, (Ideal.multiReduction_maximumf_single x _ h hφ hacc j).trans ?_⟩
  rw [show FloatOps.ofBits (F := Ideal) .f32 0xFF800000#32 = (⊥ : EReal) from Cert.ERealRows.ofBits_negInf]
  exact hM

/-! ## The payloads on real blocks -/

/-- A key block's largest squared row norm is a nonnegative real when the block's entries are reals. -/
theorem pay1_real (v0 : FVec Ideal S10000x16 .f32) (hv : ∀ i, ∃ x : ℝ, v0 i = (x : EReal)) (j : S1x1.Idx) :
    ∃ M : ℝ, 0 ≤ M ∧ k0_pay1 (F := Ideal) v0 j = (M : EReal) := by
  unfold k0_pay1
  dsimp only
  refine shapeCast_all (fun y => ∃ M : ℝ, 0 ≤ M ∧ y = (M : EReal)) _ _ (fun i => ?_) j
  refine axismax_real _ _ _ _ (by decide) (fun i => ?_) i
  refine shapeCast_all (fun y => ∃ M : ℝ, 0 ≤ M ∧ y = (M : EReal)) _ _ (fun i => ?_) i
  exact lanesq_real v0 _ _ _ hv i

/-- The negated shift is the negation of a real when the query's entries are reals and the cell a nonnegative real. -/
theorem pay5_real (Q : FVec Ideal S1024x16 .f32) (km : FVec Ideal S1x1 .f32) (hQ : ∀ i, ∃ x : ℝ, Q i = (x : EReal))
    (hkm : ∀ j, ∃ M : ℝ, 0 ≤ M ∧ km j = (M : EReal)) (i : S1024x1.Idx) :
    ∃ u : ℝ, k0_pay5 (F := Ideal) Q km i = ((-u : ℝ) : EReal) := by
  have h1 : ∃ r : ℝ, 0 ≤ r ∧ shapeCast S1024x1 (multiReduction (F := Ideal) .add [1] S1024 (mulf Q Q) 0x00000000#32
      reduces_S1024x16_S1024 (.inl rfl) rfl) shapeCasts_S1024_S1024x1 i = (r : EReal) :=
    shapeCast_all (fun y => ∃ r : ℝ, 0 ≤ r ∧ y = (r : EReal)) _ _ (fun i' => lanesq_real Q _ _ _ hQ i') i
  have h2 : ∃ M : ℝ, 0 ≤ M ∧ broadcastTo S1024x1 km broadcasts_S1x1_S1024x1 i = (M : EReal) := by
    unfold broadcastTo; exact hkm _
  obtain ⟨r, hr0, hr⟩ := h1
  obtain ⟨M, hM0, hM⟩ := h2
  have key : ∀ A B : EReal, A = (r : EReal) → B = (M : EReal) →
      Ideal.ofBits .f32 0x00000000#32 - Ideal.sqrt (A * B) = ((-(Real.sqrt (r * M)) : ℝ) : EReal) := by
    intro A B hA hB
    rw [hA, hB, ← EReal.coe_mul, Ideal.sqrt_coe, if_neg (not_lt.mpr (mul_nonneg hr0 hM0)), Ideal.ofBits_zero_f32, zero_sub,
      EReal.coe_neg]
  exact ⟨_, key _ _ hr hM⟩

/-! ## The scratch cell -/

/-- Every entry of a key block is a real when the key array's entries are. -/
theorem kblk0_real (V : (c : Dev nD) → (b : Ref sig .tc) → Buf (Elt Ideal) ((c : Thread nD τ).loc b)) (c : Dev nD)
    (K : Fin 100000 → Fin 16 → ℝ) (hK : ∀ j k, V c main_arg1 (ix2 j k) = ((K j k : ℝ) : EReal)) (t : Fin cfg0.N)
    (i : S10000x16.Idx) : ∃ x : ℝ, kblk0 V c t i = (x : EReal) := by
  have e : kblk0 V c t i = V c main_arg1 (((cfg0.win 1).blk t).view.emb i) := rfl
  obtain ⟨p, p', hp⟩ : ∃ (p : Fin 100000) (p' : Fin 16), ((cfg0.win 1).blk t).view.emb i = ix2 p p' := ⟨_, _, eq_ix2 _⟩
  exact ⟨K p p', e.trans ((congrArg (V c main_arg1) hp).trans (hK p p'))⟩

/-- The scratch cell after every point is a nonnegative real. -/
theorem km0_real (V : (c : Dev nD) → (b : Ref sig .tc) → Buf (Elt Ideal) ((c : Thread nD τ).loc b)) (c : Dev nD)
    (K : Fin 100000 → Fin 16 → ℝ) (hK : ∀ j k, V c main_arg1 (ix2 j k) = ((K j k : ℝ) : EReal)) :
    ∀ (n : ℕ) (h : n < cfg0.N) (j : S1x1.Idx), ∃ M : ℝ, 0 ≤ M ∧ km0 V c n h j = (M : EReal)
  | 0, h, j => by
    show ∃ M : ℝ, 0 ≤ M ∧ k0_pay2 (kblk0 V c ⟨0, h⟩) j = (M : EReal)
    unfold k0_pay2
    exact shapeCast_all (fun y => ∃ M : ℝ, 0 ≤ M ∧ y = (M : EReal)) _ _ (fun i => pay1_real _ (kblk0_real V c K hK _) i) j
  | n + 1, h, j => by
    show ∃ M : ℝ, 0 ≤ M ∧ k0_pay3 (kblk0 V c ⟨n + 1, h⟩) (km0 V c n (Nat.lt_of_succ_lt h)) j = (M : EReal)
    unfold k0_pay3
    refine shapeCast_all (fun y => ∃ M : ℝ, 0 ≤ M ∧ y = (M : EReal)) _ _ (fun i => ?_) j
    obtain ⟨a, ha0, ha⟩ := km0_real V c K hK n (Nat.lt_of_succ_lt h) i
    obtain ⟨b, hb0, hb⟩ := pay1_real _ (kblk0_real V c K hK ⟨n + 1, h⟩) i
    refine ⟨max a b, le_max_of_le_left ha0, ?_⟩
    show max (km0 V c n (Nat.lt_of_succ_lt h) i) (k0_pay1 (kblk0 V c ⟨n + 1, h⟩) i) = _
    rw [ha, hb, coe_max_real]

/-! ## The output block read at an index -/

/-- Column `k < 16` of a 1024 x 17 array written as columns 0..15 and then column 16 is column `k` of the first piece. -/
theorem canon_col (w5 : Vec F S1024x1 .bf16) (w4 : Vec F S1024x16 .bf16) (b : Fin 1024) (k : Fin 16) :
    View.canon [(⟨ru0, w5⟩ : View.Piece (Elt F) S1024x17 .bf16), ⟨rq0, w4⟩] (ix2 b k.castSucc) = w4 (ix2 b k) := by
  have hnot : (ix2 b k.castSucc : S1024x17.Idx) ∉ (ru0).set := by
    rw [Rect.mem_set_unit]
    intro h
    have h1 := (h 1).1
    have h2 : (16 : ℕ) ≤ k.val := h1
    omega
  have hemb : (ix2 b k.castSucc : S1024x17.Idx) = (rq0).emb (ix2 b k) := by
    funext a; apply Fin.ext
    match a with
    | ⟨0, _⟩ => show b.val = 0 + 1 * b.val; omega
    | ⟨1, _⟩ => show k.val = 0 + 1 * k.val; omega
  have e1 := View.canon_cons_of_not_mem (⟨ru0, w5⟩ : View.Piece (Elt F) S1024x17 .bf16) [⟨rq0, w4⟩] hnot
  have e2 := View.canon_cons_emb (Val := Elt F) rq0 w4 [] (ix2 b k)
  exact e1.trans ((congrArg _ hemb).trans e2)

/-- Column 16 of it is the second piece. -/
theorem canon_last (w5 : Vec F S1024x1 .bf16) (w4 : Vec F S1024x16 .bf16) (b : Fin 1024) :
    View.canon [(⟨ru0, w5⟩ : View.Piece (Elt F) S1024x17 .bf16), ⟨rq0, w4⟩] (ix2 b (Fin.last 16)) = w5 (ix2 b 0) := by
  have hemb : (ix2 b (Fin.last 16) : S1024x17.Idx) = (ru0).emb (ix2 b 0) := by
    funext a; apply Fin.ext
    match a with
    | ⟨0, _⟩ => show b.val = 0 + 1 * b.val; omega
    | ⟨1, _⟩ => show 16 = 16 + 1 * 0; omega
  have e2 := View.canon_cons_emb (Val := Elt F) ru0 w5 [⟨rq0, w4⟩] (ix2 b 0)
  exact (congrArg _ hemb).trans e2

/-- Column `k < 16` of the output block is column `k` of the query: a change of float format is the identity. -/
theorem qext0_col (Q : FVec Ideal S1024x16 .f32) (km : FVec Ideal S1x1 .f32) (b : Fin 1024) (k : Fin 16) :
    qext0 (F := Ideal) Q km (ix2 b k.castSucc) = Q (ix2 b k) := by
  unfold qext0
  exact canon_col _ _ b k

/-- Column 16 of the output block is the negated shift. -/
theorem qext0_last (Q : FVec Ideal S1024x16 .f32) (km : FVec Ideal S1x1 .f32) (b : Fin 1024) :
    qext0 (F := Ideal) Q km (ix2 b (Fin.last 16)) = k0_pay5 (F := Ideal) Q km (ix2 b 0) := by
  unfold qext0
  exact canon_last _ _ b

/-- Over the extended reals, with real query and keys: columns 0..15 of that array are the query, column 16 the
    negation of a real. -/
theorem qext_real (V : (c : Dev nD) → (b : Ref sig .tc) → Buf (Elt Ideal) ((c : Thread nD τ).loc b)) (c : Dev nD)
    (q : Fin 1024 → Fin 16 → ℝ) (K : Fin 100000 → Fin 16 → ℝ)
    (hq : ∀ b k, V c main_arg0 (ix2 b k) = ((q b k : ℝ) : EReal)) (hK : ∀ j k, V c main_arg1 (ix2 j k) = ((K j k : ℝ) : EReal)) :
    ∃ u : Fin 1024 → ℝ, ∀ b : Fin 1024,
      (∀ k : Fin 16, (dat0 V c).arrAt 2 cfg0.N (ix2 b k.castSucc) = ((q b k : ℝ) : EReal))
      ∧ (dat0 V c).arrAt 2 cfg0.N (ix2 b (Fin.last 16)) = ((-(u b) : ℝ) : EReal) := by
  rw [arr0_out V c]
  have hQ : ∀ i : S1024x16.Idx, ∃ x : ℝ, V c main_arg0 i = (x : EReal) := fun i => by
    rw [eq_ix2 i]; exact ⟨_, hq _ _⟩
  have hkm := km0_real V c K hK 9 (by decide)
  choose u hu using fun b : Fin 1024 => pay5_real (V c main_arg0) (km0 V c 9 (by decide)) hQ hkm (ix2 b 0)
  refine ⟨u, fun b => ⟨fun k => ?_, ?_⟩⟩
  · exact (qext0_col (V c main_arg0) (km0 V c 9 (by decide)) b k).trans (hq b k)
  · exact (qext0_last (V c main_arg0) (km0 V c 9 (by decide)) b).trans (hu b)

end Cert.KernelIdeal.Hand

end
-- ==== Proof.Value1Pay.lean ====
/-
  The second region's three payloads over the extended reals, at real data, index by index: the reset is zero;
  the update adds to the accumulator, in column d < 16, the block's sum of exp (q_b · K_j - u_b) V_jd and, in
  column 16, the block's sum of exp (q_b · K_j - u_b) (the contraction over 17 columns splits into the 16 columns of
  the query against the keys and the last column, -u_b against 1); the final quotient of two reals with a nonzero
  denominator is their real quotient.
-/
import proofs.«167948_g19181323944180_cont_8to1_1754_15_alg».proof.Proof.Gen.KernelIdeal.Launch
import proofs.«167948_g19181323944180_cont_8to1_1754_15_alg».proof.Proof.Gen.KernelIdeal.Skeleton
import proofs.«167948_g19181323944180_cont_8to1_1754_15_alg».proof.Proof.Gen.KernelIdeal.Points
import proofs.«167948_g19181323944180_cont_8to1_1754_15_alg».proof.Proof.KI.R1Defs
import proofs.«167948_g19181323944180_cont_8to1_1754_15_alg».proof.Proof.Spec
import proofs.«167948_g19181323944180_cont_8to1_1754_15_alg».proof.Proof.LibERealRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

/-! ## Constants -/

/-- The bf16 pattern of `1.0` denotes `1`. -/
theorem ofBits_one_bf16 : Ideal.ofBits .bf16 0x3F80#16 = 1 := by
  simp [Ideal.ofBits, Ideal.ieee, -EReal.coe_mul]; norm_num

/-! ## A block extended by a column along axis 1, read at an index -/

section Cat
variable {α : Type}

/-- Below column 16 the extended block reads the block. -/
theorem cat_left (x : S2000x16.Idx → α) (y : S2000x1.Idx → α) (hc : Shape.Concatenates [S2000x16, S2000x1] S2000x17 1)
    (j : Fin 2000) (k : Fin 16) :
    concatenate S2000x17 1 [⟨S2000x16, x⟩, ⟨S2000x1, y⟩] hc (ix2 j k.castSucc) = x (ix2 j k) :=
  concatenate_pair_apply_left 1 x y hc _ rfl _ (fun b => by
    match b with
    | ⟨0, _⟩ => rfl
    | ⟨1, _⟩ => rfl)

/-- At column 16 the extended block reads the added column. -/
theorem cat_right (x : S2000x16.Idx → α) (y : S2000x1.Idx → α) (hc : Shape.Concatenates [S2000x16, S2000x1] S2000x17 1)
    (j : Fin 2000) :
    concatenate S2000x17 1 [⟨S2000x16, x⟩, ⟨S2000x1, y⟩] hc (ix2 j (Fin.last 16)) = y (ix2 j (0 : Fin 1)) :=
  concatenate_pair_apply_right 1 x y hc _ rfl rfl _
    (fun b hb => by
      match b with
      | ⟨0, _⟩ => rfl
      | ⟨1, _⟩ => exact absurd rfl hb)
    rfl

end Cat

/-! ## The two contractions read at an index -/

theorem lhs_mm1_0 (i : S1024x2000.Idx) (q : dot_S1024x17_S2000x17_S1024x2000_1_1_0_0_n_n.contr.Idx) :
    (dot_S1024x17_S2000x17_S1024x2000_1_1_0_0_n_n.lhsIdx i q 0).val = (i 0).val := by
  unfold DotDims.lhsIdx
  rw [dif_neg (show ¬(0 : Fin S1024x17.rank) ∈ dot_S1024x17_S2000x17_S1024x2000_1_1_0_0_n_n.lhsBatch by decide), dif_pos (show (0 : Fin S1024x17.rank) ∈ dot_S1024x17_S2000x17_S1024x2000_1_1_0_0_n_n.lhsNonContracting by decide)]
  rfl
theorem lhs_mm1_1 (i : S1024x2000.Idx) (q : dot_S1024x17_S2000x17_S1024x2000_1_1_0_0_n_n.contr.Idx) :
    (dot_S1024x17_S2000x17_S1024x2000_1_1_0_0_n_n.lhsIdx i q 1).val = (q ⟨0, by decide⟩).val :=
  dot_S1024x17_S2000x17_S1024x2000_1_1_0_0_n_n.lhsIdx_val_of_single rfl i q
theorem rhs_mm1_0 (i : S1024x2000.Idx) (q : dot_S1024x17_S2000x17_S1024x2000_1_1_0_0_n_n.contr.Idx) :
    (dot_S1024x17_S2000x17_S1024x2000_1_1_0_0_n_n.rhsIdx i q 0).val = (i 1).val := by
  unfold DotDims.rhsIdx
  rw [dif_neg (show ¬(0 : Fin S2000x17.rank) ∈ dot_S1024x17_S2000x17_S1024x2000_1_1_0_0_n_n.rhsBatch by decide), dif_pos (show (0 : Fin S2000x17.rank) ∈ dot_S1024x17_S2000x17_S1024x2000_1_1_0_0_n_n.rhsNonContracting by decide)]
  rfl
theorem rhs_mm1_1 (i : S1024x2000.Idx) (q : dot_S1024x17_S2000x17_S1024x2000_1_1_0_0_n_n.contr.Idx) :
    (dot_S1024x17_S2000x17_S1024x2000_1_1_0_0_n_n.rhsIdx i q 1).val = (q ⟨0, by decide⟩).val :=
  dot_S1024x17_S2000x17_S1024x2000_1_1_0_0_n_n.rhsIdx_val_of_single rfl i q

/-- The first contraction, over the 17 columns of both operands, into the zero accumulator. -/
theorem mm1_apply (lhs : FVec Ideal S1024x17 .bf16) (rhs : FVec Ideal S2000x17 .bf16) (b : Fin 1024) (j : Fin 2000) :
    matmul dot_S1024x17_S2000x17_S1024x2000_1_1_0_0_n_n none lhs rhs (constant S1024x2000 .f32 0x00000000#32) (ix2 b j)
      = ∑ k : Fin 17, lhs (ix2 b k) * rhs (ix2 j k) := by
  simp only [matmul]
  rw [Ideal.matmul_constant_zero_apply, ← Equiv.sum_comp (contrEquiv1 dot_S1024x17_S2000x17_S1024x2000_1_1_0_0_n_n 17 rfl rfl).symm]
  refine Finset.sum_congr rfl fun k _ => ?_
  have hk := contrEquiv1_symm_val dot_S1024x17_S2000x17_S1024x2000_1_1_0_0_n_n 17 rfl rfl k
  have el : dot_S1024x17_S2000x17_S1024x2000_1_1_0_0_n_n.lhsIdx (ix2 b j) ((contrEquiv1 dot_S1024x17_S2000x17_S1024x2000_1_1_0_0_n_n 17 rfl rfl).symm k) = ix2 b k := funext fun a => Fin.ext (by
    match a with
    | ⟨0, _⟩ => exact lhs_mm1_0 _ _
    | ⟨1, _⟩ => exact (lhs_mm1_1 _ _).trans hk)
  have er : dot_S1024x17_S2000x17_S1024x2000_1_1_0_0_n_n.rhsIdx (ix2 b j) ((contrEquiv1 dot_S1024x17_S2000x17_S1024x2000_1_1_0_0_n_n 17 rfl rfl).symm k) = ix2 j k := funext fun a => Fin.ext (by
    match a with
    | ⟨0, _⟩ => exact rhs_mm1_0 _ _
    | ⟨1, _⟩ => exact (rhs_mm1_1 _ _).trans hk)
  rw [el, er]

theorem lhs_mm2_0 (i : S1024x17.Idx) (q : dot_S1024x2000_S2000x17_S1024x17_1_0_0_1_n_n.contr.Idx) :
    (dot_S1024x2000_S2000x17_S1024x17_1_0_0_1_n_n.lhsIdx i q 0).val = (i 0).val := by
  unfold DotDims.lhsIdx
  rw [dif_neg (show ¬(0 : Fin S1024x2000.rank) ∈ dot_S1024x2000_S2000x17_S1024x17_1_0_0_1_n_n.lhsBatch by decide), dif_pos (show (0 : Fin S1024x2000.rank) ∈ dot_S1024x2000_S2000x17_S1024x17_1_0_0_1_n_n.lhsNonContracting by decide)]
  rfl
theorem lhs_mm2_1 (i : S1024x17.Idx) (q : dot_S1024x2000_S2000x17_S1024x17_1_0_0_1_n_n.contr.Idx) :
    (dot_S1024x2000_S2000x17_S1024x17_1_0_0_1_n_n.lhsIdx i q 1).val = (q ⟨0, by decide⟩).val :=
  dot_S1024x2000_S2000x17_S1024x17_1_0_0_1_n_n.lhsIdx_val_of_single rfl i q
theorem rhs_mm2_0 (i : S1024x17.Idx) (q : dot_S1024x2000_S2000x17_S1024x17_1_0_0_1_n_n.contr.Idx) :
    (dot_S1024x2000_S2000x17_S1024x17_1_0_0_1_n_n.rhsIdx i q 0).val = (q ⟨0, by decide⟩).val :=
  dot_S1024x2000_S2000x17_S1024x17_1_0_0_1_n_n.rhsIdx_val_of_single rfl i q
theorem rhs_mm2_1 (i : S1024x17.Idx) (q : dot_S1024x2000_S2000x17_S1024x17_1_0_0_1_n_n.contr.Idx) :
    (dot_S1024x2000_S2000x17_S1024x17_1_0_0_1_n_n.rhsIdx i q 1).val = (i 1).val := by
  unfold DotDims.rhsIdx
  rw [dif_neg (show ¬(1 : Fin S2000x17.rank) ∈ dot_S1024x2000_S2000x17_S1024x17_1_0_0_1_n_n.rhsBatch by decide), dif_pos (show (1 : Fin S2000x17.rank) ∈ dot_S1024x2000_S2000x17_S1024x17_1_0_0_1_n_n.rhsNonContracting by decide)]
  rfl

/-- The second contraction, over the 2000 rows of the block, into the zero accumulator. -/
theorem mm2_apply (lhs : FVec Ideal S1024x2000 .bf16) (rhs : FVec Ideal S2000x17 .bf16) (b : Fin 1024) (d : Fin 17) :
    matmul dot_S1024x2000_S2000x17_S1024x17_1_0_0_1_n_n none lhs rhs (constant S1024x17 .f32 0x00000000#32) (ix2 b d)
      = ∑ j : Fin 2000, lhs (ix2 b j) * rhs (ix2 j d) := by
  simp only [matmul]
  rw [Ideal.matmul_constant_zero_apply, ← Equiv.sum_comp (contrEquiv1 dot_S1024x2000_S2000x17_S1024x17_1_0_0_1_n_n 2000 rfl rfl).symm]
  refine Finset.sum_congr rfl fun k _ => ?_
  have hk := contrEquiv1_symm_val dot_S1024x2000_S2000x17_S1024x17_1_0_0_1_n_n 2000 rfl rfl k
  have el : dot_S1024x2000_S2000x17_S1024x17_1_0_0_1_n_n.lhsIdx (ix2 b d) ((contrEquiv1 dot_S1024x2000_S2000x17_S1024x17_1_0_0_1_n_n 2000 rfl rfl).symm k) = ix2 b k := funext fun a => Fin.ext (by
    match a with
    | ⟨0, _⟩ => exact lhs_mm2_0 _ _
    | ⟨1, _⟩ => exact (lhs_mm2_1 _ _).trans hk)
  have er : dot_S1024x2000_S2000x17_S1024x17_1_0_0_1_n_n.rhsIdx (ix2 b d) ((contrEquiv1 dot_S1024x2000_S2000x17_S1024x17_1_0_0_1_n_n 2000 rfl rfl).symm k) = ix2 k d := funext fun a => Fin.ext (by
    match a with
    | ⟨0, _⟩ => exact (rhs_mm2_0 _ _).trans hk
    | ⟨1, _⟩ => exact rhs_mm2_1 _ _)
  rw [el, er]

/-! ## The arithmetic on coerced reals -/

/-- A row of 17 against a row of 17 whose last entries are `-u` and `1`: the 16-term product sum less `u`. -/
theorem row17_real (l r : Fin 17 → EReal) (ql kr : Fin 16 → ℝ) (u : ℝ)
    (hl : ∀ k : Fin 16, l k.castSucc = ((ql k : ℝ) : EReal)) (hl' : l (Fin.last 16) = ((-u : ℝ) : EReal))
    (hr : ∀ k : Fin 16, r k.castSucc = ((kr k : ℝ) : EReal)) (hr' : r (Fin.last 16) = 1) :
    ∑ k : Fin 17, l k * r k = (((∑ k : Fin 16, ql k * kr k) - u : ℝ) : EReal) := by
  rw [Fin.sum_univ_castSucc, hl', hr', mul_one]
  have h16 : ∑ k : Fin 16, l k.castSucc * r k.castSucc = ((∑ k : Fin 16, ql k * kr k : ℝ) : EReal) := by
    rw [← Cert.ERealRows.coe_sum]
    exact Finset.sum_congr rfl fun k _ => by rw [hl k, hr k, EReal.coe_mul]
  rw [h16, ← EReal.coe_add, sub_eq_add_neg]

/-- The exponential of a coerced real is the coerced real exponential. -/
theorem exp_coe (r : ℝ) : Ideal.exp ((r : ℝ) : EReal) = ((Real.exp r : ℝ) : EReal) := rfl

/-! ## The update, operation by operation, at real data -/

/-- A real block extended by the column of ones: real entries in the 16 columns, `1` in the last. -/
theorem ext_real (x : FVec Ideal S2000x16 .f32) (h1 : FTy.bits .bf16 < FTy.bits .f32)
    (hc : Shape.Concatenates [S2000x16, S2000x1] S2000x17 1)
    (X : Fin 2000 → Fin 16 → ℝ) (hX : ∀ j k, x (ix2 j k) = ((X j k : ℝ) : EReal)) (j : Fin 2000) :
    (∀ k : Fin 16, (concatenate S2000x17 1 [⟨S2000x16, truncf .bf16 x h1⟩, ⟨S2000x1, broadcast S2000x1 (FloatOps.ofBits (F := Ideal) .bf16 0x3F80#16)⟩] hc
        : FVec Ideal S2000x17 .bf16) (ix2 j k.castSucc) = ((X j k : ℝ) : EReal))
    ∧ (concatenate S2000x17 1 [⟨S2000x16, truncf .bf16 x h1⟩, ⟨S2000x1, broadcast S2000x1 (FloatOps.ofBits (F := Ideal) .bf16 0x3F80#16)⟩] hc
        : FVec Ideal S2000x17 .bf16) (ix2 j (Fin.last 16)) = 1 :=
  ⟨fun k => (cat_left _ _ hc j k).trans (hX j k), (cat_right _ _ hc j).trans ofBits_one_bf16⟩

/-- The scores: row `b` of the extended query against row `j` of the extended keys. -/
theorem scores_real (x7 : FVec Ideal S1024x17 .bf16) (kx : FVec Ideal S2000x17 .bf16)
    (q : Fin 1024 → Fin 16 → ℝ) (u : Fin 1024 → ℝ) (Kb : Fin 2000 → Fin 16 → ℝ)
    (hqe : ∀ b (k : Fin 16), x7 (ix2 b k.castSucc) = ((q b k : ℝ) : EReal)) (hu : ∀ b, x7 (ix2 b (Fin.last 16)) = ((-(u b) : ℝ) : EReal))
    (hk : ∀ j (k : Fin 16), kx (ix2 j k.castSucc) = ((Kb j k : ℝ) : EReal)) (hk1 : ∀ j, kx (ix2 j (Fin.last 16)) = 1)
    (b : Fin 1024) (j : Fin 2000) :
    matmul dot_S1024x17_S2000x17_S1024x2000_1_1_0_0_n_n none x7 kx (constant S1024x2000 .f32 0x00000000#32) (ix2 b j)
      = (((∑ k : Fin 16, q b k * Kb j k) - u b : ℝ) : EReal) :=
  (mm1_apply x7 kx b j).trans
    (row17_real (fun k => x7 (ix2 b k)) (fun k => kx (ix2 j k)) (q b) (Kb j) (u b) (hqe b) (hu b) (hk j) (hk1 j))

/-- The weights: the exponential of real scores, through the change of format. -/
theorem probs_real (s : FVec Ideal S1024x2000 .f32) (h1 : FTy.bits .bf16 < FTy.bits .f32) (S : Fin 2000 → ℝ) (b : Fin 1024)
    (hs : ∀ j, s (ix2 b j) = ((S j : ℝ) : EReal)) (j : Fin 2000) :
    (truncf .bf16 (exp s) h1 : FVec Ideal S1024x2000 .bf16) (ix2 b j) = ((Real.exp (S j) : ℝ) : EReal) := by
  show Ideal.exp (s (ix2 b j)) = _
  rw [hs j]; rfl

/-- The accumulator plus the weights against the extended values. -/
theorem upd_real (x15 : FVec Ideal S1024x17 .f32) (p : FVec Ideal S1024x2000 .bf16) (vx : FVec Ideal S2000x17 .bf16)
    (a : Fin 1024 → Fin 17 → ℝ) (P : Fin 2000 → ℝ) (Wb : Fin 2000 → Fin 16 → ℝ)
    (ha : ∀ b d', x15 (ix2 b d') = ((a b d' : ℝ) : EReal)) (b : Fin 1024)
    (hp : ∀ j, p (ix2 b j) = ((P j : ℝ) : EReal))
    (hv : ∀ j (d : Fin 16), vx (ix2 j d.castSucc) = ((Wb j d : ℝ) : EReal)) (hv1 : ∀ j, vx (ix2 j (Fin.last 16)) = 1) :
    (∀ d : Fin 16, addf x15 (matmul dot_S1024x2000_S2000x17_S1024x17_1_0_0_1_n_n none p vx (constant S1024x17 .f32 0x00000000#32)) (ix2 b d.castSucc)
        = ((a b d.castSucc + ∑ j : Fin 2000, P j * Wb j d : ℝ) : EReal))
    ∧ addf x15 (matmul dot_S1024x2000_S2000x17_S1024x17_1_0_0_1_n_n none p vx (constant S1024x17 .f32 0x00000000#32)) (ix2 b (Fin.last 16))
        = ((a b (Fin.last 16) + ∑ j : Fin 2000, P j : ℝ) : EReal) := by
  refine ⟨fun d => ?_, ?_⟩
  · show x15 (ix2 b d.castSucc) + matmul dot_S1024x2000_S2000x17_S1024x17_1_0_0_1_n_n none p vx (constant S1024x17 .f32 0x00000000#32) (ix2 b d.castSucc) = _
    rw [mm2_apply, ha, EReal.coe_add, ← Cert.ERealRows.coe_sum]
    exact congrArg _ (Finset.sum_congr rfl fun j _ => by rw [hp j, hv j d, EReal.coe_mul])
  · show x15 (ix2 b (Fin.last 16)) + matmul dot_S1024x2000_S2000x17_S1024x17_1_0_0_1_n_n none p vx (constant S1024x17 .f32 0x00000000#32) (ix2 b (Fin.last 16)) = _
    rw [mm2_apply, ha, EReal.coe_add, ← Cert.ERealRows.coe_sum]
    exact congrArg _ (Finset.sum_congr rfl fun j _ => by rw [hp j, hv1 j, mul_one])

/-- The reset payload is zero everywhere. -/
theorem pay1_apply (i : S1024x17.Idx) : k1_pay1 (F := Ideal) i = 0 := by
  unfold k1_pay1
  simp only [shapeCast_self]
  exact Ideal.ofBits_zero_f32

/-- The update payload at real data. -/
theorem pay2_apply (x4 x12 : Vec Ideal S2000x16 .f32) (x7 : Vec Ideal S1024x17 .bf16) (x15 : Vec Ideal S1024x17 .f32)
    (q : Fin 1024 → Fin 16 → ℝ) (u : Fin 1024 → ℝ) (Kb Wb : Fin 2000 → Fin 16 → ℝ) (a : Fin 1024 → Fin 17 → ℝ)
    (hqe : ∀ b (k : Fin 16), x7 (ix2 b k.castSucc) = ((q b k : ℝ) : EReal)) (hu : ∀ b, x7 (ix2 b (Fin.last 16)) = ((-(u b) : ℝ) : EReal))
    (hK : ∀ j k, x4 (ix2 j k) = ((Kb j k : ℝ) : EReal)) (hW : ∀ j d, x12 (ix2 j d) = ((Wb j d : ℝ) : EReal))
    (ha : ∀ b d', x15 (ix2 b d') = ((a b d' : ℝ) : EReal)) (b : Fin 1024) :
    (∀ d : Fin 16, k1_pay2 x4 x7 x12 x15 (ix2 b d.castSucc)
        = ((a b d.castSucc + ∑ j : Fin 2000, Real.exp ((∑ k : Fin 16, q b k * Kb j k) - u b) * Wb j d : ℝ) : EReal))
    ∧ k1_pay2 x4 x7 x12 x15 (ix2 b (Fin.last 16))
        = ((a b (Fin.last 16) + ∑ j : Fin 2000, Real.exp ((∑ k : Fin 16, q b k * Kb j k) - u b) : ℝ) : EReal) := by
  unfold k1_pay2
  simp only [shapeCast_self]
  exact upd_real x15 _ _ a (fun j => Real.exp ((∑ k : Fin 16, q b k * Kb j k) - u b)) Wb ha b
    (probs_real _ _ (fun j => (∑ k : Fin 16, q b k * Kb j k) - u b) b
      (scores_real x7 _ q u Kb hqe hu (fun j => (ext_real x4 _ _ Kb hK j).1) (fun j => (ext_real x4 _ _ Kb hK j).2) b))
    (fun j => (ext_real x12 _ _ Wb hW j).1) (fun j => (ext_real x12 _ _ Wb hW j).2)

/-- The final quotient at real data with nonzero denominators. -/
theorem pay3_apply (v24 : Vec Ideal S1024x16 .f32) (v25 : Vec Ideal S1024x1 .f32) (n : Fin 1024 → Fin 16 → ℝ) (den : Fin 1024 → ℝ)
    (hn : ∀ b d, v24 (ix2 b d) = ((n b d : ℝ) : EReal)) (hd : ∀ b, v25 (ix2 b (0 : Fin 1)) = ((den b : ℝ) : EReal))
    (hne : ∀ b, den b ≠ 0) (b : Fin 1024) (d : Fin 16) :
    k1_pay3 v24 v25 (ix2 b d) = ((n b d / den b : ℝ) : EReal) := by
  unfold k1_pay3
  show Ideal.div (v24 (ix2 b d)) (broadcastTo S1024x16 v25 broadcasts_S1024x1_S1024x16 (ix2 b d)) = _
  rw [broadcastTo_apply v25 _ (ix2 b d) (ix2 b (0 : Fin 1)) (fun a => by
    match a with
    | ⟨0, _⟩ => rfl
    | ⟨1, _⟩ => rfl), hn, hd, Ideal.div_coe (hne b), ← EReal.coe_mul, mul_one_div]

end Cert.KernelIdeal.Hand

end
-- ==== Proof.Value1.lean ====
/-
  What the second region leaves in its output array: the last point's block, written back whole, which is the
  quotient read off the accumulator after all fifty points; and, over the extended reals at real data, the
  accumulator after point n is, row by row, the sum over the key rows 0 .. 2000 (n + 1) - 1 of
  exp (q_b · K_j - u_b) V_jd (column 16: of exp (q_b · K_j - u_b)), so the output is the readout.
-/
import proofs.«167948_g19181323944180_cont_8to1_1754_15_alg».proof.Proof.Gen.KernelIdeal.Launch
import proofs.«167948_g19181323944180_cont_8to1_1754_15_alg».proof.Proof.Gen.KernelIdeal.Skeleton
import proofs.«167948_g19181323944180_cont_8to1_1754_15_alg».proof.Proof.Gen.KernelIdeal.Points
import proofs.«167948_g19181323944180_cont_8to1_1754_15_alg».proof.Proof.KI.R1Defs
import proofs.«167948_g19181323944180_cont_8to1_1754_15_alg».proof.Proof.Value1Pay
import proofs.«167948_g19181323944180_cont_8to1_1754_15_alg».proof.Proof.Spec
import proofs.«167948_g19181323944180_cont_8to1_1754_15_alg».proof.Proof.LibERealRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

namespace Value1

/-- The last point of the second region's grid. -/
abbrev tlast : Fin cfg1.N := ⟨49, by decide⟩

/-- The one point whose output block is written back is the last. -/
theorem flush_last (t : Fin cfg1.N) (hf : (cfg1.win 3).flush t = true) : t = tlast := by
  have hN : cfg1.N = 50 := N_1
  have h1 := (flush1_3 t).mp hf
  have h2 := t.isLt
  apply Fin.ext
  show t.val = 49
  omega

/-- The last point's output block sits at offset zero on both axes. -/
theorem out_off_last : (fun a => win1_3.index tlast a * main_v0.ty.shape.size a) = fun _ => 0 :=
  funext fun a => by fin_cases a <;> decide +kernel

/-- What the last point writes back is the output block, read through the whole array. -/
theorem flushed_last (V : (c : Dev nD) → (b : Ref sig .tc) → Buf (Elt F) ((c : Thread nD τ).loc b)) (c : Dev nD)
    (t : Fin cfg1.N) (hf : (cfg1.win 3).flush t = true) :
    (dat1 V c).flushed 3 t = ((cfg1.win 3).blk t).view.read (Elt F) (out1 (acc1 V c 49 (by decide))) := by
  obtain rfl : t = tlast := flush_last t hf
  show (cfg1.win 3).cut (grid1.coords tlast) ((dat1 V c).after 3 tlast) = _
  exact (Memref.read_access_unit_zero (Elt F) main_v0 out_off_last (fun a => by rw [congrFun out_off_last a]; simp)
    (out1 (acc1 V c 49 (by decide)))).symm

/-! ## The blocks at a point, read at an index -/

section Blocks

variable (V : (c : Dev nD) → (b : Ref sig .tc) → Buf (Elt F) ((c : Thread nD τ).loc b)) (c : Dev nD)

/-- The extended query's block at any point is the whole array. -/
theorem qeblk_apply (t : Fin cfg1.N) (b : Fin 1024) (k' : Fin 17) :
    qeblk1 V c t (ix2 b k') = V c main_call0_v0 (ix2 b k') := by
  have hi : win1_0.index t 0 = 0 ∧ win1_0.index t 1 = 0 :=
    (by decide +kernel : ∀ t : Fin grid1.N, win1_0.index t 0 = 0 ∧ win1_0.index t 1 = 0) t
  show V c main_call0_v0 (((cfg1.win 0).blk t).view.emb (ix2 b k')) = V c main_call0_v0 (ix2 b k')
  congr 1
  funext a; apply Fin.ext
  match a with
  | ⟨0, _⟩ => show win1_0.index t 0 * 1024 + 1 * b.val = b.val; rw [hi.1]; omega
  | ⟨1, _⟩ => show win1_0.index t 1 * 17 + 1 * k'.val = k'.val; rw [hi.2]; omega

/-- Row `r` of the key block at point `t` is row `2000 t + r` of the keys. -/
theorem kblk_apply (t : Fin cfg1.N) (r : Fin 2000) (k : Fin 16) (hr : 2000 * t.val + r.val < 100000) :
    kblk1 V c t (ix2 r k) = V c main_arg1 (ix2 (⟨2000 * t.val + r.val, hr⟩ : Fin 100000) k) := by
  have hi : win1_1.index t 0 = t.val ∧ win1_1.index t 1 = 0 :=
    (by decide +kernel : ∀ t : Fin grid1.N, win1_1.index t 0 = t.val ∧ win1_1.index t 1 = 0) t
  show V c main_arg1 (((cfg1.win 1).blk t).view.emb (ix2 r k)) = V c main_arg1 (ix2 (⟨2000 * t.val + r.val, hr⟩ : Fin 100000) k)
  congr 1
  funext a; apply Fin.ext
  match a with
  | ⟨0, _⟩ => show win1_1.index t 0 * 2000 + 1 * r.val = 2000 * t.val + r.val; rw [hi.1]; omega
  | ⟨1, _⟩ => show win1_1.index t 1 * 16 + 1 * k.val = k.val; rw [hi.2]; omega

/-- Row `r` of the value block at point `t` is row `2000 t + r` of the values. -/
theorem vblk_apply (t : Fin cfg1.N) (r : Fin 2000) (k : Fin 16) (hr : 2000 * t.val + r.val < 100000) :
    vblk1 V c t (ix2 r k) = V c main_arg2 (ix2 (⟨2000 * t.val + r.val, hr⟩ : Fin 100000) k) := by
  have hi : win1_2.index t 0 = t.val ∧ win1_2.index t 1 = 0 :=
    (by decide +kernel : ∀ t : Fin grid1.N, win1_2.index t 0 = t.val ∧ win1_2.index t 1 = 0) t
  show V c main_arg2 (((cfg1.win 2).blk t).view.emb (ix2 r k)) = V c main_arg2 (ix2 (⟨2000 * t.val + r.val, hr⟩ : Fin 100000) k)
  congr 1
  funext a; apply Fin.ext
  match a with
  | ⟨0, _⟩ => show win1_2.index t 0 * 2000 + 1 * r.val = 2000 * t.val + r.val; rw [hi.1]; omega
  | ⟨1, _⟩ => show win1_2.index t 1 * 16 + 1 * k.val = k.val; rw [hi.2]; omega

end Blocks

/-! ## The partial sums over the key rows -/

section Partial

variable (q : Fin 1024 → Fin 16 → ℝ) (u : Fin 1024 → ℝ) (K W : Fin 100000 → Fin 16 → ℝ)

/-- What key row `m` adds to row `b`, column `d'` of the accumulator: `exp (q_b · K_m - u_b)` times `W_m d'` in the
    columns below 16 and times one in column 16; nothing past the last row. -/
def term (b : Fin 1024) (d' : Fin 17) (m : ℕ) : ℝ :=
  if h : m < 100000 then
    Real.exp (Cert.Spec.sim q K b ⟨m, h⟩ - u b) * (if hd : d'.val < 16 then W ⟨m, h⟩ ⟨d'.val, hd⟩ else 1)
  else 0

/-- The accumulator's entry after `n` blocks: the sum over the key rows below `2000 n`. -/
def part (n : ℕ) (b : Fin 1024) (d' : Fin 17) : ℝ := ∑ m ∈ Finset.range (2000 * n), term q u K W b d' m

theorem part_zero (b : Fin 1024) (d' : Fin 17) : part q u K W 0 b d' = 0 := by
  unfold part
  rw [Nat.mul_zero, Finset.range_zero, Finset.sum_empty]

/-- One more block adds its 2000 rows. -/
theorem part_succ (n : ℕ) (b : Fin 1024) (d' : Fin 17) :
    part q u K W (n + 1) b d' = part q u K W n b d' + ∑ r : Fin 2000, term q u K W b d' (2000 * n + r.val) := by
  unfold part
  rw [show 2000 * (n + 1) = 2000 * n + 2000 from by ring, Finset.sum_range_add,
    Fin.sum_univ_eq_sum_range (fun x => term q u K W b d' (2000 * n + x)) 2000]

theorem term_castSucc (b : Fin 1024) (d : Fin 16) (m : ℕ) (h : m < 100000) :
    term q u K W b d.castSucc m = Real.exp ((∑ k : Fin 16, q b k * K ⟨m, h⟩ k) - u b) * W ⟨m, h⟩ d := by
  unfold term
  rw [dif_pos h, dif_pos (show (d.castSucc : Fin 17).val < 16 from d.isLt)]
  rfl

theorem term_last (b : Fin 1024) (m : ℕ) (h : m < 100000) :
    term q u K W b (Fin.last 16) m = Real.exp ((∑ k : Fin 16, q b k * K ⟨m, h⟩ k) - u b) := by
  unfold term
  rw [dif_pos h, dif_neg (show ¬ (Fin.last 16 : Fin 17).val < 16 from Nat.lt_irrefl 16), mul_one]
  rfl

/-- All fifty blocks: the sums over all the key rows. -/
theorem part_all_castSucc (b : Fin 1024) (d : Fin 16) :
    part q u K W 50 b d.castSucc = ∑ j : Fin 100000, Real.exp (Cert.Spec.sim q K b j - u b) * W j d := by
  unfold part
  rw [show 2000 * 50 = 100000 from rfl, ← Fin.sum_univ_eq_sum_range (fun m => term q u K W b d.castSucc m) 100000]
  exact Finset.sum_congr rfl fun j _ => term_castSucc q u K W b d j.val j.isLt

theorem part_all_last (b : Fin 1024) :
    part q u K W 50 b (Fin.last 16) = ∑ j : Fin 100000, Real.exp (Cert.Spec.sim q K b j - u b) := by
  unfold part
  rw [show 2000 * 50 = 100000 from rfl, ← Fin.sum_univ_eq_sum_range (fun m => term q u K W b (Fin.last 16) m) 100000]
  exact Finset.sum_congr rfl fun j _ => term_last q u K W b j.val j.isLt

end Partial

/-! ## The accumulator after each point, and the output -/

section Invariant

variable (q : Fin 1024 → Fin 16 → ℝ) (u : Fin 1024 → ℝ) (K W : Fin 100000 → Fin 16 → ℝ)

/-- One update: from the partial sums after `n` blocks and block `n`'s rows to the partial sums after `n + 1`. -/
theorem step_apply (x4 x12 : Vec Ideal S2000x16 .f32) (x7 : Vec Ideal S1024x17 .bf16) (x15 : Vec Ideal S1024x17 .f32)
    (n : ℕ) (hn : n < 50)
    (hqe : ∀ b (k : Fin 16), x7 (ix2 b k.castSucc) = ((q b k : ℝ) : EReal))
    (hu : ∀ b, x7 (ix2 b (Fin.last 16)) = ((-(u b) : ℝ) : EReal))
    (hK : ∀ (r : Fin 2000) k, x4 (ix2 r k) = ((K ⟨2000 * n + r.val, by have := r.isLt; omega⟩ k : ℝ) : EReal))
    (hW : ∀ (r : Fin 2000) d, x12 (ix2 r d) = ((W ⟨2000 * n + r.val, by have := r.isLt; omega⟩ d : ℝ) : EReal))
    (ha : ∀ b d', x15 (ix2 b d') = ((part q u K W n b d' : ℝ) : EReal)) (b : Fin 1024) (d' : Fin 17) :
    k1_pay2 x4 x7 x12 x15 (ix2 b d') = ((part q u K W (n + 1) b d' : ℝ) : EReal) := by
  obtain ⟨h1, h2⟩ := pay2_apply x4 x12 x7 x15 q u
    (fun r k => K ⟨2000 * n + r.val, by have := r.isLt; omega⟩ k) (fun r d => W ⟨2000 * n + r.val, by have := r.isLt; omega⟩ d)
    (part q u K W n) hqe hu hK hW ha b
  refine Fin.lastCases ?_ (fun d => ?_) d'
  · refine h2.trans (congrArg Real.toEReal ?_)
    rw [part_succ]
    refine congrArg _ (Finset.sum_congr rfl fun r _ => ?_)
    exact (term_last q u K W b _ _).symm
  · refine (h1 d).trans (congrArg Real.toEReal ?_)
    rw [part_succ]
    refine congrArg _ (Finset.sum_congr rfl fun r _ => ?_)
    exact (term_castSucc q u K W b d _ _).symm

variable (V : (c : Dev nD) → (b : Ref sig .tc) → Buf (Elt Ideal) ((c : Thread nD τ).loc b)) (c : Dev nD)

/-- The accumulator after point `n` holds, row by row, the partial sums over the key rows below `2000 (n + 1)`. -/
theorem acc_apply (hqe : ∀ b (k : Fin 16), V c main_call0_v0 (ix2 b k.castSucc) = ((q b k : ℝ) : EReal))
    (hu : ∀ b, V c main_call0_v0 (ix2 b (Fin.last 16)) = ((-(u b) : ℝ) : EReal))
    (hK : ∀ j k, V c main_arg1 (ix2 j k) = ((K j k : ℝ) : EReal)) (hW : ∀ j d, V c main_arg2 (ix2 j d) = ((W j d : ℝ) : EReal)) :
    ∀ (n : ℕ) (h : n < cfg1.N) (b : Fin 1024) (d' : Fin 17),
      acc1 V c n h (ix2 b d') = ((part q u K W (n + 1) b d' : ℝ) : EReal)
  | 0, h, b, d' => by
    show k1_pay2 (kblk1 V c ⟨0, h⟩) (qeblk1 V c ⟨0, h⟩) (vblk1 V c ⟨0, h⟩) (k1_pay1 (F := Ideal)) (ix2 b d') = _
    refine step_apply q u K W _ _ _ _ 0 (by decide)
      (fun b k => (qeblk_apply V c ⟨0, h⟩ b k.castSucc).trans (hqe b k))
      (fun b => (qeblk_apply V c ⟨0, h⟩ b (Fin.last 16)).trans (hu b))
      (fun r k => (kblk_apply V c ⟨0, h⟩ r k _).trans (hK _ k))
      (fun r d => (vblk_apply V c ⟨0, h⟩ r d _).trans (hW _ d))
      (fun b d' => ?_) b d'
    rw [pay1_apply, part_zero]
    rfl
  | n + 1, h, b, d' => by
    have hN : cfg1.N = 50 := N_1
    show k1_pay2 (kblk1 V c ⟨n + 1, h⟩) (qeblk1 V c ⟨n + 1, h⟩) (vblk1 V c ⟨n + 1, h⟩) (acc1 V c n (Nat.lt_of_succ_lt h)) (ix2 b d') = _
    exact step_apply q u K W _ _ _ _ (n + 1) (by omega)
      (fun b k => (qeblk_apply V c ⟨n + 1, h⟩ b k.castSucc).trans (hqe b k))
      (fun b => (qeblk_apply V c ⟨n + 1, h⟩ b (Fin.last 16)).trans (hu b))
      (fun r k => (kblk_apply V c ⟨n + 1, h⟩ r k _).trans (hK _ k))
      (fun r d => (vblk_apply V c ⟨n + 1, h⟩ r d _).trans (hW _ d))
      (fun b d' => acc_apply hqe hu hK hW n (Nat.lt_of_succ_lt h) b d') b d'

end Invariant

/-- Columns 0..15 of the accumulator, read through their rectangle. -/
theorem ra1_idx (b : Fin 1024) (d : Fin 16) : ra1.idx (ix2 b d) = ix2 b d.castSucc := by
  funext a; apply Fin.ext
  match a with
  | ⟨0, _⟩ => show 0 + 1 * b.val = b.val; omega
  | ⟨1, _⟩ => show 0 + 1 * d.val = d.val; omega

/-- Column 16 of the accumulator, read through its rectangle. -/
theorem rb1_idx (b : Fin 1024) : rb1.idx (ix2 b (0 : Fin 1)) = ix2 b (Fin.last 16) := by
  funext a; apply Fin.ext
  match a with
  | ⟨0, _⟩ => show 0 + 1 * b.val = b.val; omega
  | ⟨1, _⟩ => show 16 + 1 * 0 = 16; omega

end Value1

open Value1

/-- The second region's output array after its last point is the last point's output block. -/
theorem arr1_out (V : (c : Dev nD) → (b : Ref sig .tc) → Buf (Elt F) ((c : Thread nD τ).loc b)) (c : Dev nD) :
    (dat1 V c).arrAt 3 cfg1.N = out1 (acc1 V c 49 (by decide)) := by
  refine (dat1 V c).arrAt_eq_of_cover 3 (out1 (acc1 V c 49 (by decide))) (flushed_last V c) fun i => ?_
  refine ⟨tlast, (flush1_3 tlast).mpr rfl, ?_⟩
  show i ∈ ((View.whole main_v0).slice (win1_3.rect tlast)).set
  rw [View.set_slice_whole, Rect.mem_set_unit]
  intro a
  have h0 : (i 0 : Nat) < 1024 := (i 0).isLt
  have h1 : (i 1 : Nat) < 16 := (i 1).isLt
  match a with
  | ⟨0, _⟩ =>
    show win1_3.index tlast 0 * win1_3.size 0 ≤ (i 0 : Nat) ∧ (i 0 : Nat) < win1_3.index tlast 0 * win1_3.size 0 + win1_3.xsize (grid1.coords tlast) 0
    rw [show win1_3.index tlast 0 * win1_3.size 0 = 0 from by decide +kernel,
      show win1_3.xsize (grid1.coords tlast) 0 = 1024 from by decide +kernel]
    omega
  | ⟨1, _⟩ =>
    show win1_3.index tlast 1 * win1_3.size 1 ≤ (i 1 : Nat) ∧ (i 1 : Nat) < win1_3.index tlast 1 * win1_3.size 1 + win1_3.xsize (grid1.coords tlast) 1
    rw [show win1_3.index tlast 1 * win1_3.size 1 = 0 from by decide +kernel,
      show win1_3.xsize (grid1.coords tlast) 1 = 16 from by decide +kernel]
    omega

/-- Over the extended reals, at an extended query [q | -u] and real keys and values, the output array is the readout. -/
theorem out_readout (V : (c : Dev nD) → (b : Ref sig .tc) → Buf (Elt Ideal) ((c : Thread nD τ).loc b)) (c : Dev nD)
    (q : Fin 1024 → Fin 16 → ℝ) (u : Fin 1024 → ℝ) (K W : Fin 100000 → Fin 16 → ℝ)
    (hqe : ∀ b (k : Fin 16), V c main_call0_v0 (ix2 b k.castSucc) = ((q b k : ℝ) : EReal))
    (hu : ∀ b, V c main_call0_v0 (ix2 b (Fin.last 16)) = ((-(u b) : ℝ) : EReal))
    (hK : ∀ j k, V c main_arg1 (ix2 j k) = ((K j k : ℝ) : EReal)) (hW : ∀ j d, V c main_arg2 (ix2 j d) = ((W j d : ℝ) : EReal))
    (b : Fin 1024) (d : Fin 16) :
    (dat1 V c).arrAt 3 cfg1.N (ix2 b d) = ((Cert.Spec.readout q K W b d : ℝ) : EReal) := by
  have hacc := acc_apply q u K W V c hqe hu hK hW 49 (by decide)
  refine (congrFun (arr1_out V c) (ix2 b d)).trans ?_
  show k1_pay3 (View.ld (acc1 V c 49 (by decide)) ra1) (View.ld (acc1 V c 49 (by decide)) rb1) (ix2 b d) = _
  refine (pay3_apply _ _ (fun b d => part q u K W 50 b d.castSucc) (fun b => part q u K W 50 b (Fin.last 16))
    (fun b d => (congrArg (acc1 V c 49 (by decide)) (ra1_idx b d)).trans (hacc b d.castSucc))
    (fun b => (congrArg (acc1 V c 49 (by decide)) (rb1_idx b)).trans (hacc b (Fin.last 16)))
    (fun b => ?_) b d).trans (congrArg Real.toEReal ?_)
  · rw [part_all_last]
    exact Cert.Spec.sum_exp_ne_zero q K (u b) b
  · show part q u K W 50 b d.castSucc / part q u K W 50 b (Fin.last 16) = _
    rw [part_all_castSucc, part_all_last]
    exact Cert.Spec.quot_shift q K W (u b) b d

end Cert.KernelIdeal.Hand

end
-- ==== Proof.KernelValue.lean ====
/-
  The kernel program's result over the extended reals, at real arguments: the first region leaves the extended
  query [q | -u] with u real, the second region reads it beside the keys and values as launched, and its output is
  the softmax readout.
-/
import proofs.«167948_g19181323944180_cont_8to1_1754_15_alg».proof.Proof.Gen.KernelIdeal.Launch
import proofs.«167948_g19181323944180_cont_8to1_1754_15_alg».proof.Proof.Gen.KernelIdeal.Skeleton
import proofs.«167948_g19181323944180_cont_8to1_1754_15_alg».proof.Proof.Gen.KernelIdeal.Points
import proofs.«167948_g19181323944180_cont_8to1_1754_15_alg».proof.Proof.KI.Main
import proofs.«167948_g19181323944180_cont_8to1_1754_15_alg».proof.Proof.Value0
import proofs.«167948_g19181323944180_cont_8to1_1754_15_alg».proof.Proof.Value1
import proofs.«167948_g19181323944180_cont_8to1_1754_15_alg».proof.Proof.Spec
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

/-- The result array after the run, at real arguments, is the readout. -/
theorem result_readout (m : (ℓ : Loc nD τ sig) → Buf (Elt Ideal) ℓ) (c : Dev nD)
    (q : Fin 1024 → Fin 16 → ℝ) (K W : Fin 100000 → Fin 16 → ℝ)
    (hq : ∀ b k, m ((c : Thread nD τ).loc main_arg0) (ix2 b k) = ((q b k : ℝ) : EReal))
    (hK : ∀ j k, m ((c : Thread nD τ).loc main_arg1) (ix2 j k) = ((K j k : ℝ) : EReal))
    (hW : ∀ j d, m ((c : Thread nD τ).loc main_arg2) (ix2 j d) = ((W j d : ℝ) : EReal))
    (b : Fin 1024) (d : Fin 16) :
    W2 m c (Proc.devRef .tc main_v0) (ix2 b d) = ((Cert.Spec.readout q K W b d : ℝ) : EReal) := by
  obtain ⟨u, hu⟩ := qext_real (V0 m) c q K hq hK
  rw [W2_main_v0]
  refine out_readout (V1 m) c q u K W ?_ ?_ ?_ ?_ b d
  · intro b k; rw [V1_main_call0_v0]; exact (hu b).1 k
  · intro b; rw [V1_main_call0_v0]; exact (hu b).2
  · intro j k; rw [show V1 m c main_arg1 = m ((c : Thread nD τ).loc main_arg1) from W1_main_arg1 m c]; exact hK j k
  · intro j d; rw [show V1 m c main_arg2 = m ((c : Thread nD τ).loc main_arg2) from W1_main_arg2 m c]; exact hW j d

end Cert.KernelIdeal.Hand

end
-- ==== Proof.RefValue.lean ====
/-
  The reference, index by index: its result at (b, d) is the softmax readout of the real data. The logits are the
  dot products q_b · K_j; the row maximum folded from -inf over a nonempty real row is a real M_b; the weights are
  exp (q_b · K_j - M_b) over their sum; and the sum of the weights against column d of V is the readout, whatever M_b.
-/
import proofs.«167948_g19181323944180_cont_8to1_1754_15_alg».proof.Proof.Gen.ReferenceIdeal.Read
import proofs.«167948_g19181323944180_cont_8to1_1754_15_alg».proof.Proof.Spec
import proofs.«167948_g19181323944180_cont_8to1_1754_15_alg».proof.Proof.LibERealRows
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-- The logit at (b, j) is the real dot product of query row b and key row j. -/
theorem sim_read (x0 : (⟨S1024x16, .f32⟩ : BufTy).Contents (Elt Ideal)) (x1 : (⟨S100000x16, .f32⟩ : BufTy).Contents (Elt Ideal))
    (q : Fin 1024 → Fin 16 → ℝ) (K : Fin 100000 → Fin 16 → ℝ)
    (hq : ∀ b k, x0 (ix2 b k) = ((q b k : ℝ) : EReal)) (hK : ∀ j k, x1 (ix2 j k) = ((K j k : ℝ) : EReal))
    (b : Fin 1024) (j : Fin 100000) :
    val_main_v1 (F := Ideal) x0 x1 (ix2 b j) = ((Cert.Spec.sim q K b j : ℝ) : EReal) := by
  rw [val_main_v1_apply]
  unfold Cert.Spec.sim
  rw [← Cert.ERealRows.coe_sum]
  refine Finset.sum_congr rfl fun k _ => ?_
  have e1 : lidx_main_v1 (ix2 b j) k = ix2 b k :=
    funext fun a => Fin.ext (by match a with | ⟨0, _⟩ => rfl | ⟨1, _⟩ => rfl)
  have e2 : idx_main_v0 (ridx_main_v1 (ix2 b j) k) = ix2 j k :=
    funext fun a => Fin.ext (by match a with | ⟨0, _⟩ => rfl | ⟨1, _⟩ => rfl)
  rw [val_main_v0_apply, e1, e2, hq, hK, EReal.coe_mul]

/-- The row maximum of the logits, folded from -∞ over the nonempty row, is a real. -/
theorem max_read (x0 : (⟨S1024x16, .f32⟩ : BufTy).Contents (Elt Ideal)) (x1 : (⟨S100000x16, .f32⟩ : BufTy).Contents (Elt Ideal))
    (q : Fin 1024 → Fin 16 → ℝ) (K : Fin 100000 → Fin 16 → ℝ)
    (hq : ∀ b k, x0 (ix2 b k) = ((q b k : ℝ) : EReal)) (hK : ∀ j k, x1 (ix2 j k) = ((K j k : ℝ) : EReal))
    (b : Fin 1024) :
    ∃ M : ℝ, val_main_v4 (F := Ideal) x0 x1 (ix1 b) = ((M : ℝ) : EReal) := by
  obtain ⟨M, hM⟩ := Cert.ERealRows.fold_max_real (fun j : Fin 100000 => Cert.Spec.sim q K b j)
  refine ⟨M, ?_⟩
  have hR : S1024x100000.Reduces [1] S1024 := by decide
  have hv1 : ∀ j : Fin 100000, val_main_v1 (F := Ideal) x0 x1 (ix2 b j) = ((Cert.Spec.sim q K b j : ℝ) : EReal) :=
    sim_read x0 x1 q K hq hK b
  have hi : val_main_cst (F := Ideal) (Shape.Idx.first h_S_) = (⊥ : EReal) := by
    rw [val_main_cst_apply, Ideal.ofBits_def, Cert.ERealRows.ofBits_negInf]
  rw [val_main_v4_apply, val_main_v3_apply, val_main_cst_0_apply, Ideal.maximumf_def, Ideal.ofBits_def,
    Cert.ERealRows.ofBits_negInf, max_bot_left]
  unfold val_main_v2
  generalize val_main_v1 (F := Ideal) x0 x1 = y at hv1 ⊢
  have key := Host.reduce_eq_fold_single (α := Ideal .f32) (FloatOps.maximumf (F := Ideal) (φ := .f32)) y
    (val_main_cst (F := Ideal)) reducesTo_S1024x100000_S1024_d1 hR h_S_ (ix1 b)
  refine key.trans ?_
  have hf : (y ∘ hR.lift (ix1 b)) = fun j : Fin 100000 => ((Cert.Spec.sim q K b j : ℝ) : EReal) := funext fun k => by
    rw [← hv1 k]
    exact congrArg y (funext fun c => Fin.ext (by match c with | ⟨0, _⟩ => rfl | ⟨1, _⟩ => rfl))
  rw [hf, hi]
  exact hM

section Row

variable (x0 : (⟨S1024x16, .f32⟩ : BufTy).Contents (Elt Ideal)) (x1 : (⟨S100000x16, .f32⟩ : BufTy).Contents (Elt Ideal))
  (q : Fin 1024 → Fin 16 → ℝ) (K : Fin 100000 → Fin 16 → ℝ)
  (hq : ∀ b k, x0 (ix2 b k) = ((q b k : ℝ) : EReal)) (hK : ∀ j k, x1 (ix2 j k) = ((K j k : ℝ) : EReal))
  (b : Fin 1024) (M : ℝ) (hM : val_main_v4 (F := Ideal) x0 x1 (ix1 b) = ((M : ℝ) : EReal))

include hq hK hM

/-- The exponential of the shifted logit at (b, j) is the real exponential. -/
theorem exp_read (j : Fin 100000) :
    val_main_v8 (F := Ideal) x0 x1 (ix2 b j) = ((Real.exp (Cert.Spec.sim q K b j - M) : ℝ) : EReal) := by
  have e : idx_main_v5 (idx_main_v6 (ix2 b j)) = ix1 b :=
    funext fun a => Fin.ext (by match a with | ⟨0, _⟩ => rfl)
  rw [val_main_v8_apply, val_main_v7_apply, val_main_v6_apply, val_main_v5_apply, e, hM,
    sim_read x0 x1 q K hq hK b j, Ideal.subf_def, Ideal.hostUnary_exp_def, ← EReal.coe_sub, Ideal.exp_coe]

/-- The row sum of the exponentials, from 0, is the real sum. -/
theorem sum_read :
    val_main_v9 (F := Ideal) x0 x1 (ix1 b) = ((∑ j : Fin 100000, Real.exp (Cert.Spec.sim q K b j - M) : ℝ) : EReal) := by
  rw [val_main_v9_apply, val_main_cst_1_apply, Ideal.ofBits_def, Ideal.ofBits_zero_f32, zero_add,
    ← Cert.ERealRows.coe_sum]
  refine Finset.sum_congr rfl fun k _ => ?_
  have e : idx_main_v9 (ix1 b) k = ix2 b k :=
    funext fun a => Fin.ext (by match a with | ⟨0, _⟩ => rfl | ⟨1, _⟩ => rfl)
  rw [e, exp_read x0 x1 q K hq hK b M hM k]

/-- The normalised weight at (b, j) is the real quotient: the row sum is a nonzero real. -/
theorem weight_read (j : Fin 100000) :
    val_main_v12 (F := Ideal) x0 x1 (ix2 b j)
      = ((Real.exp (Cert.Spec.sim q K b j - M) / ∑ j' : Fin 100000, Real.exp (Cert.Spec.sim q K b j' - M) : ℝ) : EReal) := by
  have e : idx_main_v10 (idx_main_v11 (ix2 b j)) = ix1 b :=
    funext fun a => Fin.ext (by match a with | ⟨0, _⟩ => rfl)
  rw [val_main_v12_apply, val_main_v11_apply, val_main_v10_apply, e, sum_read x0 x1 q K hq hK b M hM,
    exp_read x0 x1 q K hq hK b M hM j, Ideal.hostDivf_def, Ideal.div_coe (Cert.Spec.sum_exp_ne_zero q K M b),
    ← EReal.coe_mul, mul_one_div]

end Row

/-- The reference's result stage at real arguments is the readout. -/
theorem ref_readout (x0 : (⟨S1024x16, .f32⟩ : BufTy).Contents (Elt Ideal)) (x1 x2 : (⟨S100000x16, .f32⟩ : BufTy).Contents (Elt Ideal))
    (q : Fin 1024 → Fin 16 → ℝ) (K W : Fin 100000 → Fin 16 → ℝ)
    (hq : ∀ b k, x0 (ix2 b k) = ((q b k : ℝ) : EReal)) (hK : ∀ j k, x1 (ix2 j k) = ((K j k : ℝ) : EReal))
    (hW : ∀ j d, x2 (ix2 j d) = ((W j d : ℝ) : EReal)) (b : Fin 1024) (d : Fin 16) :
    val_main_v13 (F := Ideal) x0 x1 x2 (ix2 b d) = ((Cert.Spec.readout q K W b d : ℝ) : EReal) := by
  obtain ⟨M, hM⟩ := max_read x0 x1 q K hq hK b
  rw [val_main_v13_apply, ← Cert.Spec.softmax_shift q K W M b d, ← Cert.ERealRows.coe_sum]
  refine Finset.sum_congr rfl fun k _ => ?_
  have e1 : lidx_main_v13 (ix2 b d) k = ix2 b k :=
    funext fun a => Fin.ext (by match a with | ⟨0, _⟩ => rfl | ⟨1, _⟩ => rfl)
  have e2 : ridx_main_v13 (ix2 b d) k = ix2 k d :=
    funext fun a => Fin.ext (by match a with | ⟨0, _⟩ => rfl | ⟨1, _⟩ => rfl)
  rw [e1, e2, weight_read x0 x1 q K hq hK b M hM k, hW, EReal.coe_mul]

end Cert.ReferenceIdeal.RefValue

end
-- ==== Proof.Finite.lean ====
/-
  The precondition, read back: each of the three conjuncts compares every entry's absolute value with +inf, and an
  extended real whose absolute value is below +inf is a real number; so all three argument arrays hold reals.
-/
import proofs.«167948_g19181323944180_cont_8to1_1754_15_alg».proof.Pre_finite_inputs
import proofs.«167948_g19181323944180_cont_8to1_1754_15_alg».proof.Proof.Gen.Pre_finite_inputs
import proofs.«167948_g19181323944180_cont_8to1_1754_15_alg».proof.Proof.LibERealRows
import Idealize.ShloMosaic.PureOps.Ideal
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx

/-- The shape of a scalar has one index. -/
instance : Subsingleton Cert.Pre_finite_inputs.S_.Idx := ⟨fun a b => funext fun d => d.elim0⟩

/-- One conjunct, read at one entry: if every `|x i| < +∞` holds (the conjunction over both axes came out true), the entry
    `x i` is a real. -/
private theorem real_of_all {n : Nat} (x : FVec Ideal ⟨2, ![n, 16]⟩ .f32)
    (hb : Cert.Pre_finite_inputs.S_.BroadcastsInDim ⟨2, ![n, 16]⟩ (![] : Fin 0 → Fin 2))
    (hr : (⟨2, ![n, 16]⟩ : Shape).ReducesTo [0, 1] Cert.Pre_finite_inputs.S_) (hS : 0 < Cert.Pre_finite_inputs.S_.numel)
    (h : Host.reduce IntOp.andi
        (cmpf .olt (Host.absf x)
          (broadcastInDim ⟨2, ![n, 16]⟩ ![] hb (constant (F := Ideal) Cert.Pre_finite_inputs.S_ .f32 0x7F800000#32)))
        (constantI Cert.Pre_finite_inputs.S_ 1 1#1) hr hS ix0 = 1#1)
    (i : (⟨2, ![n, 16]⟩ : Shape).Idx) : ∃ r : ℝ, x i = (r : EReal) := by
  have e := Host.reduce_andi_all _ _ hr hS ix0 h i
  rw [cmpf_apply, broadcastInDim_scalar_apply] at e
  exact Cert.ERealRows.real_of_abs_lt_inf (x i) e

/-- If the precondition's predicate evaluates to true on three arrays of extended reals, each array is an array of reals. -/
theorem reals_of_finite [Cert.Pre_finite_inputs.Facts]
    (x0 : FVec Ideal Cert.Pre_finite_inputs.S1024x16 .f32) (x1 x2 : FVec Ideal Cert.Pre_finite_inputs.S100000x16 .f32)
    (h : Cert.Pre_finite_inputs.fn (F := Ideal) x0 x1 x2 = fun _ => 1#1) :
    (∃ q : Fin 1024 → Fin 16 → ℝ, ∀ b k, x0 (ix2 b k) = ((q b k : ℝ) : EReal))
    ∧ (∃ K : Fin 100000 → Fin 16 → ℝ, ∀ j k, x1 (ix2 j k) = ((K j k : ℝ) : EReal))
    ∧ (∃ W : Fin 100000 → Fin 16 → ℝ, ∀ j d, x2 (ix2 j d) = ((W j d : ℝ) : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  have r0 := real_of_all x0 _ _ _ h0'
  have r1 := real_of_all x1 _ _ _ h1
  have r2 := real_of_all x2 _ _ _ h2
  refine ⟨⟨fun b k => Classical.choose (r0 (ix2 b k)), fun b k => Classical.choose_spec (r0 (ix2 b k))⟩,
    ⟨fun j k => Classical.choose (r1 (ix2 j k)), fun j k => Classical.choose_spec (r1 (ix2 j k))⟩,
    ⟨fun j d => Classical.choose (r2 (ix2 j d)), fun j d => Classical.choose_spec (r2 (ix2 j d))⟩⟩

end Cert.Finite

end
-- ==== Proof.lean ====
/-
  The certificate. The kernel is a streaming softmax readout in two calls: a prologue that folds the largest squared
  key-row norm over ten blocks and writes the extended query [q | -u], u_b = sqrt(|q_b|^2 * that maximum), and a main
  call that, block by block over fifty blocks of 2000 keys and values, accumulates exp([q | -u] . [k | 1]^T) . [v | 1]
  and finally divides the first sixteen columns by the seventeenth. Over the extended reals with finite (hence real)
  inputs the shift u_b is a real number, the exponent is q_b . k_j - u_b, and the factor exp(-u_b) cancels between the
  numerator and the denominator: the result is the softmax readout (Σ_j exp(q_b . k_j) v_jd) / (Σ_j exp(q_b . k_j)).
  The reference shifts by the row maximum instead, normalises first and then sums against the values; its shift cancels
  the same way. So both programs compute the readout, index by index.
  The frames of the two kernel programs (the printed program at the word level and its reading over the extended
  reals: the same text) come from the run of the two regions in order, each region's body run case by case over its
  grid; the reference's frame is its run.
-/
import proofs.«167948_g19181323944180_cont_8to1_1754_15_alg».proof.Defs
import proofs.«167948_g19181323944180_cont_8to1_1754_15_alg».proof.Proof.Gen.Kernel
import proofs.«167948_g19181323944180_cont_8to1_1754_15_alg».proof.Proof.Gen.KernelIdeal
import proofs.«167948_g19181323944180_cont_8to1_1754_15_alg».proof.Proof.Gen.ReferenceIdeal
import proofs.«167948_g19181323944180_cont_8to1_1754_15_alg».proof.Proof.Gen.Pre_finite_inputs
import proofs.«167948_g19181323944180_cont_8to1_1754_15_alg».proof.Proof.Gen.ReferenceIdeal.Run
import proofs.«167948_g19181323944180_cont_8to1_1754_15_alg».proof.Proof.Gen.ReferenceIdeal.Read
import proofs.«167948_g19181323944180_cont_8to1_1754_15_alg».proof.Proof.K.Main
import proofs.«167948_g19181323944180_cont_8to1_1754_15_alg».proof.Proof.KI.Main
import proofs.«167948_g19181323944180_cont_8to1_1754_15_alg».proof.Proof.KernelValue
import proofs.«167948_g19181323944180_cont_8to1_1754_15_alg».proof.Proof.RefValue
import proofs.«167948_g19181323944180_cont_8to1_1754_15_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

section Claims

variable [hKernel : Cert.Kernel.Facts] [hKernelIdeal : Cert.KernelIdeal.Facts] [hReferenceIdeal : Cert.ReferenceIdeal.Facts]
  [hPre : Cert.Pre_finite_inputs.Facts]

/-- The word-level program runs and leaves its arguments as launched. -/
theorem frame_p : Cert.frame_Kernel := fun m ρ _ => Cert.Kernel.Hand.frame m ρ

/-- So does its reading over the extended reals. -/
theorem frame_pi : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the readout of the (real) arguments in their result arrays. -/
theorem algebraic : Cert.algebraic_KernelIdeal_ReferenceIdeal := by
  intro m ρ m' ρ' hpre hagree
  refine ⟨fun c => Cert.KernelIdeal.Hand.W2 m c (Proc.devRef .tc Cert.KernelIdeal.main_v0), ?_, ?_⟩
  · refine (θ_run Cert.KernelIdeal.defs _ _).mono (fun _ h c => ?_) (Cert.KernelIdeal.Hand.run_main m ρ)
    exact ⟨h c _ (Cert.KernelIdeal.Hand.mem_uc Cert.KernelIdeal.main_v0 (by decide)),
      (h c _ (Cert.KernelIdeal.Hand.mem_uc Cert.KernelIdeal.main_arg0 (by decide))).trans (Cert.KernelIdeal.Hand.W2_main_arg0 m c),
      (h c _ (Cert.KernelIdeal.Hand.mem_uc Cert.KernelIdeal.main_arg1 (by decide))).trans (Cert.KernelIdeal.Hand.W2_main_arg1 m c),
      (h c _ (Cert.KernelIdeal.Hand.mem_uc Cert.KernelIdeal.main_arg2 (by decide))).trans (Cert.KernelIdeal.Hand.W2_main_arg2 m c)⟩
  · refine (θ_run Cert.ReferenceIdeal.defs _ _).mono (fun _ h c => ⟨(h c).1.trans ?_, (h c).2⟩)
      (Cert.ReferenceIdeal.Value.run (F := Ideal) m' ρ')
    obtain ⟨⟨q, hq⟩, ⟨K, hK⟩, ⟨W, hW⟩⟩ := Cert.Finite.reals_of_finite _ _ _ (hpre c)
    rw [Cert.ReferenceIdeal.Read.val_main_v13_eq, (hagree c).1, (hagree c).2.1, (hagree c).2.2]
    funext i
    obtain ⟨b, d, rfl⟩ : ∃ (b : Fin 1024) (d : Fin 16), i = ix2 b d := ⟨i 0, i 1, eq_ix2 i⟩
    rw [Cert.ReferenceIdeal.RefValue.ref_readout _ _ _ q K W hq hK hW b d]
    exact (Cert.KernelIdeal.Hand.result_readout m c q K W hq hK hW b d).symm

end Claims

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
